-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x256 : Shape := ⟨3, ![8, 16384, 256]⟩
abbrev S16 : Shape := ⟨1, ![16]⟩
abbrev S16x512 : Shape := ⟨2, ![16, 512]⟩
abbrev S_ : Shape := ⟨0, ![]⟩

class Facts : Prop where
  bcast_S_S8x16384x256 : S_.BroadcastsInDim S8x16384x256 (![] : Fin 0 → Fin S8x16384x256.rank)
  reducesTo_S8x16384x256_S_d0_1_2 : S8x16384x256.ReducesTo [0, 1, 2] S_
  h_S_ : 0 < S_.numel

variable [Facts]

def fn {F : FTy → Type} [FloatOps F] (main_arg0 : FVec F S8x16384x256 .f32) (main_arg1 : IVec S16 32) (main_arg2 : IVec S16x512 32) (main_arg3 : IVec S16 32) : IVec S_ 1 :=
  let main_v0 : FVec F S8x16384x256 .f32 := Host.absf main_arg0
  let main_cst : FVec F S_ .f32 := constant S_ .f32 0x7F800000#32
  let main_v1 : FVec F S8x16384x256 .f32 := broadcastInDim S8x16384x256 ![] bcast_S_S8x16384x256 main_cst
  let main_v2 : IVec S8x16384x256 1 := cmpf .olt main_v0 main_v1
  let main_c : IVec S_ 1 := constantI S_ 1 1#1
  let main_v3 : IVec S_ 1 := (fun x v => Host.reduce IntOp.andi x v reducesTo_S8x16384x256_S_d0_1_2 h_S_) main_v2 main_c
  main_v3
-- ==== Kernel.lean ====
abbrev S8x16384x256 : Shape := ⟨3, ![8, 16384, 256]⟩
abbrev S16 : Shape := ⟨1, ![16]⟩
abbrev S16x512 : Shape := ⟨2, ![16, 512]⟩
abbrev S16x1 : Shape := ⟨2, ![16, 1]⟩
abbrev S_ : Shape := ⟨0, ![]⟩
abbrev S16x512x1 : Shape := ⟨3, ![16, 512, 1]⟩
abbrev S16x512x2 : Shape := ⟨3, ![16, 512, 2]⟩
abbrev S16x512x256 : Shape := ⟨3, ![16, 512, 256]⟩
abbrev S512x16x256 : Shape := ⟨3, ![512, 16, 256]⟩
abbrev S8192x256 : Shape := ⟨2, ![8192, 256]⟩
abbrev S1x16 : Shape := ⟨2, ![1, 16]⟩
abbrev S512x16 : Shape := ⟨2, ![512, 16]⟩
abbrev S8192 : Shape := ⟨1, ![8192]⟩
abbrev S8192x1 : Shape := ⟨2, ![8192, 1]⟩
abbrev S1x8192 : Shape := ⟨2, ![1, 8192]⟩
abbrev S16x16 : Shape := ⟨2, ![16, 16]⟩
abbrev S256x256 : Shape := ⟨2, ![256, 256]⟩
abbrev S256x1 : Shape := ⟨2, ![256, 1]⟩
abbrev S256 : Shape := ⟨1, ![256]⟩
abbrev S256x8192 : Shape := ⟨2, ![256, 8192]⟩

abbrev nBuf : Space → Nat
  | .hbm => 63
  | .vmem => 11
  | .smem => 0
  | _ => 0

abbrev bufTy : (tb : Table) → Fin (tcTables nBuf tb) → BufTy
  | .hbm, ⟨0, _⟩ => ⟨S8x16384x256, .f32⟩
  | .hbm, ⟨1, _⟩ => ⟨S16, .i32⟩
  | .hbm, ⟨2, _⟩ => ⟨S16x512, .i32⟩
  | .hbm, ⟨3, _⟩ => ⟨S16, .i32⟩
  | .hbm, ⟨4, _⟩ => ⟨S16x1, .i32⟩
  | .hbm, ⟨5, _⟩ => ⟨S_, .i32⟩
  | .hbm, ⟨6, _⟩ => ⟨S16x1, .i32⟩
  | .hbm, ⟨7, _⟩ => ⟨S16x1, .i1⟩
  | .hbm, ⟨8, _⟩ => ⟨S_, .i32⟩
  | .hbm, ⟨9, _⟩ => ⟨S16x1, .i32⟩
  | .hbm, ⟨10, _⟩ => ⟨S16x1, .i32⟩
  | .hbm, ⟨11, _⟩ => ⟨S16x1, .i32⟩
  | .hbm, ⟨12, _⟩ => ⟨S_, .i32⟩
  | .hbm, ⟨13, _⟩ => ⟨S16x512, .i32⟩
  | .hbm, ⟨14, _⟩ => ⟨S16x512, .i1⟩
  | .hbm, ⟨15, _⟩ => ⟨S_, .i32⟩
  | .hbm, ⟨16, _⟩ => ⟨S16x512, .i32⟩
  | .hbm, ⟨17, _⟩ => ⟨S16x512, .i32⟩
  | .hbm, ⟨18, _⟩ => ⟨S16x512, .i32⟩
  | .hbm, ⟨19, _⟩ => ⟨S16x512, .i32⟩
  | .hbm, ⟨20, _⟩ => ⟨S16x512x1, .i32⟩
  | .hbm, ⟨21, _⟩ => ⟨S16x512x1, .i32⟩
  | .hbm, ⟨22, _⟩ => ⟨S16x512x2, .i32⟩
  | .hbm, ⟨23, _⟩ => ⟨S16x512x256, .f32⟩
  | .hbm, ⟨24, _⟩ => ⟨S512x16x256, .f32⟩
  | .hbm, ⟨25, _⟩ => ⟨S8192x256, .f32⟩
  | .hbm, ⟨26, _⟩ => ⟨S1x16, .i32⟩
  | .hbm, ⟨27, _⟩ => ⟨S512x16, .i32⟩
  | .hbm, ⟨28, _⟩ => ⟨S8192, .i32⟩
  | .hbm, ⟨29, _⟩ => ⟨S8192x1, .i32⟩
  | .hbm, ⟨30, _⟩ => ⟨S1x8192, .i32⟩
  | .hbm, ⟨31, _⟩ => ⟨S16x1, .i32⟩
  | .hbm, ⟨32, _⟩ => ⟨S1x16, .i32⟩
  | .hbm, ⟨33, _⟩ => ⟨S16x16, .i32⟩
  | .hbm, ⟨34, _⟩ => ⟨S16x16, .i32⟩
  | .hbm, ⟨35, _⟩ => ⟨S16x16, .i1⟩
  | .hbm, ⟨36, _⟩ => ⟨S16x16, .f32⟩
  | .hbm, ⟨37, _⟩ => ⟨S_, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S1x16, .f32⟩
  | .hbm, ⟨46, _⟩ => ⟨S512x16, .f32⟩
  | .hbm, ⟨47, _⟩ => ⟨S8192, .f32⟩
  | .hbm, ⟨48, _⟩ => ⟨S8192x256, .bf16⟩
  | .hbm, ⟨49, _⟩ => ⟨S8192x256, .f32⟩
  | .hbm, ⟨50, _⟩ => ⟨S8192x256, .f32⟩
  | .hbm, ⟨51, _⟩ => ⟨S8192x256, .bf16⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S256x256, .bf16⟩
  | .local _ .vmem, ⟨4, _⟩ => ⟨S256x256, .bf16⟩
  | .local _ .vmem, ⟨5, _⟩ => ⟨S8192x256, .bf16⟩
  | .local _ .vmem, ⟨6, _⟩ => ⟨S256x1, .i32⟩
  | .local _ .vmem, ⟨7, _⟩ => ⟨S256x1, .i32⟩
  | .local _ .vmem, ⟨8, _⟩ => ⟨S1x8192, .i32⟩
  | .local _ .vmem, ⟨9, _⟩ => ⟨S256, .f32⟩
  | .local _ .vmem, ⟨10, _⟩ => ⟨S256, .f32⟩
  | _, _ => ⟨S8x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S16_S16x1_0 : S16.BroadcastsInDim S16x1 (![0] : Fin 1 → Fin S16x1.rank)
  bcast_S_S16x1 : S_.BroadcastsInDim S16x1 (![] : Fin 0 → Fin S16x1.rank)
  bcast_S_S16x512 : S_.BroadcastsInDim S16x512 (![] : Fin 0 → Fin S16x512.rank)
  bcast_S16x1_S16x512_0_1 : S16x1.BroadcastsInDim S16x512 (![0, 1] : Fin 2 → Fin S16x512.rank)
  bcast_S16x512_S16x512x1_0_1 : S16x512.BroadcastsInDim S16x512x1 (![0, 1] : Fin 2 → Fin S16x512x1.rank)
  concatenates_S16x512x1_S16x512x1_S16x512x2_d2 : Shape.Concatenates [S16x512x1, S16x512x1] S16x512x2 2
  transposes_S16x512x256_S512x16x256_1_0_2 : S16x512x256.Transposes [1, 0, 2] S512x16x256
  shapeCasts_S512x16x256_S8192x256 : S512x16x256.ShapeCasts S8192x256
  shapeCasts_S16_S1x16 : S16.ShapeCasts S1x16
  bcast_S1x16_S512x16_0_1 : S1x16.BroadcastsInDim S512x16 (![0, 1] : Fin 2 → Fin S512x16.rank)
  shapeCasts_S512x16_S8192 : S512x16.ShapeCasts S8192
  shapeCasts_S8192_S8192x1 : S8192.ShapeCasts S8192x1
  shapeCasts_S8192_S1x8192 : S8192.ShapeCasts S1x8192
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  reducesTo_S16x16_S16_d1 : S16x16.ReducesTo [1] S16
  h_S_ : 0 < S_.numel
  bcast_S_S16 : S_.BroadcastsInDim S16 (![] : Fin 0 → Fin S16.rank)
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S256x8192_S256 : S256x8192.Reduces [1] S256
  shapeCasts_S256_S256x1 : S256.ShapeCasts S256x1
  broadcasts_S256x1_S256x8192 : S256x1.Broadcasts S256x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  iota_S256x8192_d0_w32 : S256x8192.Iotas .tc 32 [0]
  iota_S256x8192_d1_w32 : S256x8192.Iotas .tc 32 [1]
  inb_S256_S256_0 : ∀ a, (![0] : Fin 1 → Nat) a + S256.size a ≤ S256.size a
  h_S256 : 0 < S256.numel
  bcast_S_S8192 : S_.BroadcastsInDim S8192 (![] : Fin 0 → Fin S8192.rank)
  reducesTo_S8192_S_d0 : S8192.ReducesTo [0] S_
  gather_S8x16384x256_S16x512x2_S16x512x256_2_01_n_n_01_2_11256_wf : GatherDims.WF S8x16384x256 S16x512x2 S16x512x256 [2] [0, 1] [] [0, 1] [] 2 ![1, 1, 256]
  dot_S256x256_S8192x256_S256x8192_1_1_0_0_n_n_wf : DotDims.WF S256x256 S8192x256 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .bf16 = 32 ∨ (Rect.block (s := S8192x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x256.size a
  hwx0_2 : ∀ i : grid0.Coords, EltTy.bits .bf16 = 32 ∨ (Rect.block (s := S8192x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S8192x256.size a
  hwx0_3 : ∀ i : grid0.Coords, EltTy.bits .bf16 = 32 ∨ (Rect.block (s := S8192x256) S8192x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .i32 = 32 ∨ (Rect.block (s := S8192x1) S256x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .i32 = 32 ∨ (Rect.block (s := S1x8192) S1x8192.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S8192.size a
  hwx0_6 : ∀ i : grid0.Coords, EltTy.bits .f32 = 32 ∨ (Rect.block (s := S8192) S256.size (cc0_transform_6 i) (hinb0_6 i)).WholeWords (EltTy.packing .f32)

variable [Facts₀]

def gather_S8x16384x256_S16x512x2_S16x512x256_2_01_n_n_01_2_11256 : GatherDims S8x16384x256 S16x512x2 S16x512x256 where
  offsetDims := [2]
  collapsedSliceDims := [0, 1]
  operandBatchingDims := []
  startIndicesBatchingDims := []
  startIndexMap := [0, 1]
  indexVectorDim := 2
  sliceSizes := ![1, 1, 256]
  wf := gather_S8x16384x256_S16x512x2_S16x512x256_2_01_n_n_01_2_11256_wf
def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_v37) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S8192x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x16384x256 : Shape := ⟨3, ![8, 16384, 256]⟩
abbrev S16 : Shape := ⟨1, ![16]⟩
abbrev S16x512 : Shape := ⟨2, ![16, 512]⟩
abbrev S16x1 : Shape := ⟨2, ![16, 1]⟩
abbrev S_ : Shape := ⟨0, ![]⟩
abbrev S16x512x1 : Shape := ⟨3, ![16, 512, 1]⟩
abbrev S16x512x2 : Shape := ⟨3, ![16, 512, 2]⟩
abbrev S16x512x256 : Shape := ⟨3, ![16, 512, 256]⟩
abbrev S1x16 : Shape := ⟨2, ![1, 16]⟩
abbrev S16x16 : Shape := ⟨2, ![16, 16]⟩
abbrev S512x16x256 : Shape := ⟨3, ![512, 16, 256]⟩
abbrev S8192x256 : Shape := ⟨2, ![8192, 256]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S1x16x1x16 : Shape := ⟨4, ![1, 16, 1, 16]⟩
abbrev S512x16x512x16 : Shape := ⟨4, ![512, 16, 512, 16]⟩

abbrev nBuf : Space → Nat
  | .hbm => 83
  | .vmem => 0
  | .smem => 0
  | _ => 0

abbrev bufTy : (tb : Table) → Fin (tcTables nBuf tb) → BufTy
  | .hbm, ⟨0, _⟩ => ⟨S8x16384x256, .f32⟩
  | .hbm, ⟨1, _⟩ => ⟨S16, .i32⟩
  | .hbm, ⟨2, _⟩ => ⟨S16x512, .i32⟩
  | .hbm, ⟨3, _⟩ => ⟨S16, .i32⟩
  | .hbm, ⟨4, _⟩ => ⟨S16x1, .i32⟩
  | .hbm, ⟨5, _⟩ => ⟨S_, .i32⟩
  | .hbm, ⟨6, _⟩ => ⟨S16x1, .i32⟩
  | .hbm, ⟨7, _⟩ => ⟨S16x1, .i1⟩
  | .hbm, ⟨8, _⟩ => ⟨S_, .i32⟩
  | .hbm, ⟨9, _⟩ => ⟨S16x1, .i32⟩
  | .hbm, ⟨10, _⟩ => ⟨S16x1, .i32⟩
  | .hbm, ⟨11, _⟩ => ⟨S16x1, .i32⟩
  | .hbm, ⟨12, _⟩ => ⟨S_, .i32⟩
  | .hbm, ⟨13, _⟩ => ⟨S16x512, .i32⟩
  | .hbm, ⟨14, _⟩ => ⟨S16x512, .i1⟩
  | .hbm, ⟨15, _⟩ => ⟨S_, .i32⟩
  | .hbm, ⟨16, _⟩ => ⟨S16x512, .i32⟩
  | .hbm, ⟨17, _⟩ => ⟨S16x512, .i32⟩
  | .hbm, ⟨18, _⟩ => ⟨S16x512, .i32⟩
  | .hbm, ⟨19, _⟩ => ⟨S16x512, .i32⟩
  | .hbm, ⟨20, _⟩ => ⟨S16x512x1, .i32⟩
  | .hbm, ⟨21, _⟩ => ⟨S16x512x1, .i32⟩
  | .hbm, ⟨22, _⟩ => ⟨S16x512x2, .i32⟩
  | .hbm, ⟨23, _⟩ => ⟨S16x512x256, .f32⟩
  | .hbm, ⟨24, _⟩ => ⟨S16x1, .i32⟩
  | .hbm, ⟨25, _⟩ => ⟨S1x16, .i32⟩
  | .hbm, ⟨26, _⟩ => ⟨S16x16, .i32⟩
  | .hbm, ⟨27, _⟩ => ⟨S16x16, .i32⟩
  | .hbm, ⟨28, _⟩ => ⟨S16x16, .i1⟩
  | .hbm, ⟨29, _⟩ => ⟨S16x16, .f32⟩
  | .hbm, ⟨30, _⟩ => ⟨S512x16x256, .f32⟩
  | .hbm, ⟨31, _⟩ => ⟨S8192x256, .f32⟩
  | .hbm, ⟨32, _⟩ => ⟨S256x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S1x16x1x16, .f32⟩
  | .hbm, ⟨43, _⟩ => ⟨S512x16x512x16, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .i32⟩
  | .hbm, ⟨49, _⟩ => ⟨S8192x8192, .i32⟩
  | .hbm, ⟨50, _⟩ => ⟨S_, .i32⟩
  | .hbm, ⟨51, _⟩ => ⟨S8192x8192, .i32⟩
  | .hbm, ⟨52, _⟩ => ⟨S8192x8192, .i32⟩
  | .hbm, ⟨53, _⟩ => ⟨S8192x8192, .i1⟩
  | .hbm, ⟨54, _⟩ => ⟨S8192x8192, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S8x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S_S16x1 : S_.BroadcastsInDim S16x1 (![] : Fin 0 → Fin S16x1.rank)
  bcast_S_S16x512 : S_.BroadcastsInDim S16x512 (![] : Fin 0 → Fin S16x512.rank)
  bcast_S16x1_S16x512_0_1 : S16x1.BroadcastsInDim S16x512 (![0, 1] : Fin 2 → Fin S16x512.rank)
  bcast_S16x512_S16x512x1_0_1 : S16x512.BroadcastsInDim S16x512x1 (![0, 1] : Fin 2 → Fin S16x512x1.rank)
  concatenates_S16x512x1_S16x512x1_S16x512x2_d2 : Shape.Concatenates [S16x512x1, S16x512x1] S16x512x2 2
  shapeCasts_S16_S16x1 : S16.ShapeCasts S16x1
  transposes_S16x1_S1x16_1_0 : S16x1.Transposes [1, 0] S1x16
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  transposes_S16x512x256_S512x16x256_1_0_2 : S16x512x256.Transposes [1, 0, 2] S512x16x256
  shapeCasts_S512x16x256_S8192x256 : S512x16x256.ShapeCasts S8192x256
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  shapeCasts_S16x16_S1x16x1x16 : S16x16.ShapeCasts S1x16x1x16
  bcast_S1x16x1x16_S512x16x512x16_0_1_2_3 : S1x16x1x16.BroadcastsInDim S512x16x512x16 (![0, 1, 2, 3] : Fin 4 → Fin S512x16x512x16.rank)
  shapeCasts_S512x16x512x16_S8192x8192 : S512x16x512x16.ShapeCasts S8192x8192
  bcast_S_S8192 : S_.BroadcastsInDim S8192 (![] : Fin 0 → Fin S8192.rank)
  reducesTo_S8192_S_d0 : S8192.ReducesTo [0] S_
  gather_S8x16384x256_S16x512x2_S16x512x256_2_01_n_n_01_2_11256_wf : GatherDims.WF S8x16384x256 S16x512x2 S16x512x256 [2] [0, 1] [] [0, 1] [] 2 ![1, 1, 256]
  dot_S8192x256_S256x8192_S8192x8192_1_0_0_1_n_n_wf : DotDims.WF S8192x256 S256x8192 S8192x8192 [1] [0] [0] [1] [] []

variable [Facts₀]

def gather_S8x16384x256_S16x512x2_S16x512x256_2_01_n_n_01_2_11256 : GatherDims S8x16384x256 S16x512x2 S16x512x256 where
  offsetDims := [2]
  collapsedSliceDims := [0, 1]
  operandBatchingDims := []
  startIndicesBatchingDims := []
  startIndexMap := [0, 1]
  indexVectorDim := 2
  sliceSizes := ![1, 1, 256]
  wf := gather_S8x16384x256_S16x512x2_S16x512x256_2_01_n_n_01_2_11256_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Spec.lean ====
/-
  The supervised pixel-contrast loss as two formulas over plain index types, and the statement that they agree.

  Rows are the N = 8192 = 512 · 16 sampled pixels in view-major order: row i = v · 16 + a is view v of anchor a, and its
  class is the anchor's label, lab i = sl (i mod 16). Features f i k, k < 256. Everything is an extended real.

  Both formulas are functions of a logits matrix L (N × N):
    M i      = max_j L i j                                  (the fold of max from -inf)
    s i j    = L i j - M i,   e i j = exp (s i j)
    neg i    = the sum of e i j over the j of ANOTHER class than i
    lp i j   = s i j - log (e i j + neg i)
    num i    = the sum of lp i j over the j ≠ i of the SAME class as i
    den i    = the number of such j
    result   = w · ((Σ_i c · (num i / den i)) / 8192).
  The tiled form takes neg as (Σ_j e i j) - (Σ_j [same class] e i j), selects by a Boolean, counts den as
  512 · #{a' : sl a' = sl a} - 1, and scales the Gram matrix of the features split as f + g (g the part a
  narrower format drops, here f - f) by a constant κ, dropping the g·g term; the dense form multiplies by 0/1 masks and
  divides the Gram matrix by the literal D. They agree when every f i k is a real number and κ = 1 / D.
-/
import Idealize.ShloMosaic.PureOps.Ideal
import Idealize.ShloMosaic.PureOps.Ideal.Laws

noncomputable section

namespace Cert.Contrast

open Idealize.ShloMosaic

/-- The class of row i: its anchor's label. -/
def labOf (sl : Fin 16 → BitVec 32) (i : Fin 8192) : BitVec 32 := sl ⟨i.val % 16, Nat.mod_lt _ (by decide)⟩

/-- Σ_k f i k · g j k. -/
def gram (f g : Fin 8192 → Fin 256 → EReal) (i j : Fin 8192) : EReal := ∑ k : Fin 256, f i k * g j k

/-- The literals both programs carry, as the words they are printed with. -/
abbrev negInf : EReal := Ideal.ofBits .f32 0xFF800000#32
abbrev cScale : EReal := Ideal.ofBits .f32 0xBFB6DB6E#32
abbrev nRows : EReal := Ideal.ofBits .f32 0x46000000#32
abbrev wLoss : EReal := Ideal.ofBits .f32 0x3DCCCCCD#32
/-- The divisor of the dense form: the f32 word of 0.1. -/
abbrev dTemp : EReal := Ideal.ofBits .f32 0x3DCCCCCD#32
/-- The scale of the tiled form: the exact reciprocal of that word's value. -/
abbrev kTemp : EReal := ((134217728 / 13421773 : ℝ) : EReal)

/-- The tiled form's logits: ((f·f + f·g) + g·f) · κ. -/
def logitsK (κ : EReal) (f g : Fin 8192 → Fin 256 → EReal) (i j : Fin 8192) : EReal :=
  ((gram f f i j + gram f g i j) + gram g f i j) * κ

/-- The dense form's logits: (f·f) / D. -/
def logitsR (f : Fin 8192 → Fin 256 → EReal) (i j : Fin 8192) : EReal := Ideal.div (gram f f i j) dTemp

section
variable (L : Fin 8192 → Fin 8192 → EReal)

def rowMax (i : Fin 8192) : EReal := (Finset.univ : Finset (Fin 8192)).fold max negInf (L i)
def shifted (i j : Fin 8192) : EReal := L i j - rowMax L i
def expo (i j : Fin 8192) : EReal := Ideal.exp (shifted L i j)

variable (lab : Fin 8192 → BitVec 32)

def negK (i : Fin 8192) : EReal := (∑ j, expo L i j) - ∑ j, (if lab i = lab j then expo L i j else 0)
def negR (i : Fin 8192) : EReal := 0 + ∑ j, expo L i j * (1 - (if lab i = lab j then (1 : EReal) else 0))

def logProb (neg : Fin 8192 → EReal) (i j : Fin 8192) : EReal := shifted L i j - Ideal.log (expo L i j + neg i)

def numK (i : Fin 8192) : EReal := ∑ j, (if lab i = lab j ∧ i ≠ j then logProb L (negK L lab) i j else 0)
def numR (i : Fin 8192) : EReal :=
  0 + ∑ j, ((if lab i = lab j then (1 : EReal) else 0) * (1 - (if i = j then (1 : EReal) else 0))) * logProb L (negR L lab) i j
end

def denR (lab : Fin 8192 → BitVec 32) (i : Fin 8192) : EReal :=
  0 + ∑ j, ((if lab i = lab j then (1 : EReal) else 0) * (1 - (if i = j then (1 : EReal) else 0)))
def denK (sl : Fin 16 → BitVec 32) (i : Fin 8192) : EReal :=
  (512 : EReal) * (0 + ∑ a' : Fin 16, (if labOf sl i = sl a' then (1 : EReal) else 0)) - 1

/-- w · ((0 + Σ_i c · (num i / den i)) / 8192). -/
def lossOf (num den : Fin 8192 → EReal) : EReal :=
  wLoss * Ideal.div (0 + ∑ i, cScale * Ideal.div (num i) (den i)) nRows

def resK (κ : EReal) (f g : Fin 8192 → Fin 256 → EReal) (sl : Fin 16 → BitVec 32) : EReal :=
  lossOf (numK (logitsK κ f g) (labOf sl)) (denK sl)
def resR (f : Fin 8192 → Fin 256 → EReal) (sl : Fin 16 → BitVec 32) : EReal :=
  lossOf (numR (logitsR f) (labOf sl)) (denR (labOf sl))

end Cert.Contrast

end
-- ==== Proof.SpecMath.lean ====
/-
  The tiled and the dense formula of the supervised pixel-contrast loss agree on real features.

  With every feature a real number the dropped part g = f - f vanishes, so both Gram cross terms are 0 and the
  tiled logits are (f·f)·κ; the dense logits are (f·f)/D with D the real 13421773/2^27 and κ = 2^27/13421773
  its reciprocal. The common logits are real, hence so are the row maximum, the shifted logits and the
  exponentials, and on reals the two forms of neg, num and den are the same finite sums.
-/
import proofs.«419777_j60876866453606_3_alg».proof.Proof.Spec
import Mathlib.Data.EReal.Operations
import Mathlib.Data.EReal.Inv
import Mathlib.Logic.Equiv.Fin.Basic
import Mathlib.Algebra.BigOperators.Group.Finset.Basic

noncomputable section

namespace Cert.Contrast

open Idealize.ShloMosaic

namespace SpecMath

/-! ### Finite sums and folds of reals inside the extended reals -/

/-- A finite sum of reals, taken in the extended reals, is the real sum. -/
theorem coe_sum {ι : Type*} (s : Finset ι) (h : ι → ℝ) :
    ∑ i ∈ s, (h i : EReal) = ((∑ i ∈ s, h i : ℝ) : EReal) := by
  classical
  induction s using Finset.induction_on with
  | empty => simp
  | insert a s ha ih => rw [Finset.sum_insert ha, Finset.sum_insert ha, ih, EReal.coe_add]

/-- The fold of max from ⊥ over a nonempty family of reals is a real. -/
theorem fold_max_coe {ι : Type*} (s : Finset ι) (h : ι → ℝ) :
    s = ∅ ∨ ∃ m : ℝ, s.fold max (⊥ : EReal) (fun j => (h j : EReal)) = (m : EReal) := by
  classical
  induction s using Finset.induction_on with
  | empty => left; rfl
  | insert a s ha ih =>
    right
    rw [Finset.fold_insert ha]
    rcases ih with rfl | ⟨m, hm⟩
    · exact ⟨h a, by simp⟩
    · exact ⟨max (h a) m, by rw [hm]; exact (EReal.coe_strictMono.monotone.map_max).symm⟩

/-- 1 - 1 = 0 in the extended reals (both are real). -/
theorem one_sub_one : (1 : EReal) - 1 = 0 := by
  rw [← EReal.coe_one, ← EReal.coe_sub, sub_self, EReal.coe_zero]

/-- Σ_j e_j - Σ_j [p j] e_j = 0 + Σ_j e_j · (1 - [p j]) for real e. -/
theorem sum_sub_sum_ite {ι : Type*} [Fintype ι] (E : ι → ℝ) (p : ι → Prop) [DecidablePred p] :
    (∑ j, (E j : EReal)) - ∑ j, (if p j then (E j : EReal) else 0)
      = 0 + ∑ j, (E j : EReal) * (1 - (if p j then (1 : EReal) else 0)) := by
  have h1 : ∀ j, (if p j then (E j : EReal) else 0) = ((if p j then E j else 0 : ℝ) : EReal) := by
    intro j; split_ifs <;> simp
  have h2 : ∀ j, (E j : EReal) * (1 - (if p j then (1 : EReal) else 0))
      = ((E j * (1 - (if p j then 1 else 0)) : ℝ) : EReal) := by
    intro j; split_ifs <;> simp [one_sub_one]
  simp only [h1, h2, coe_sum, zero_add, ← EReal.coe_sub]
  congr 1
  rw [← Finset.sum_sub_distrib]
  refine Finset.sum_congr rfl fun j _ => ?_
  split_ifs <;> ring

/-! ### The literals -/

/-- The f32 word 0x3DCCCCCD is 13421773 · 2^-27. -/
theorem ofBits_dTemp : Ideal.ofBits .f32 0x3DCCCCCD#32 = ((13421773 / 134217728 : ℝ) : EReal) := by
  simp [Ideal.ofBits, Ideal.ieee, -EReal.coe_mul]; norm_num

/-- The f32 word 0xFF800000 is -∞. -/
theorem ofBits_negInf : Ideal.ofBits .f32 0xFF800000#32 = (⊥ : EReal) := by
  simp [Ideal.ofBits, Ideal.ieee]

/-- The dense form's divisor D is 13421773 · 2^-27. -/
theorem dTemp_eq : dTemp = ((13421773 / 134217728 : ℝ) : EReal) := ofBits_dTemp

/-- The fold's starting value is -∞. -/
theorem negInf_eq : negInf = (⊥ : EReal) := ofBits_negInf

/-! ### The logits -/

/-- The real logits: (Σ_k F i k · F j k) · 2^27/13421773. -/
def logitsReal (F : Fin 8192 → Fin 256 → ℝ) (i j : Fin 8192) : ℝ :=
  (∑ k : Fin 256, F i k * F j k) * (134217728 / 13421773)

/-- The Gram matrix of real features is the real Gram matrix. -/
theorem gram_coe (F : Fin 8192 → Fin 256 → ℝ) (i j : Fin 8192) :
    gram (fun i k => (F i k : EReal)) (fun i k => (F i k : EReal)) i j
      = ((∑ k : Fin 256, F i k * F j k : ℝ) : EReal) := by
  unfold gram
  simp only [← EReal.coe_mul]
  exact coe_sum _ _

/-- The dense logits of real features are the real logits. -/
theorem logitsR_coe (F : Fin 8192 → Fin 256 → ℝ) :
    logitsR (fun i k => (F i k : EReal)) = fun i j => (logitsReal F i j : EReal) := by
  funext i j
  unfold logitsR logitsReal
  rw [gram_coe, dTemp_eq, Ideal.div_coe (by norm_num), ← EReal.coe_mul]
  congr 2; norm_num

/-- The tiled logits of real features, the dropped part being f - f = 0, are the real logits. -/
theorem logitsK_coe (F : Fin 8192 → Fin 256 → ℝ) :
    logitsK kTemp (fun i k => (F i k : EReal)) (fun i k => (F i k : EReal) - (F i k : EReal))
      = fun i j => (logitsReal F i j : EReal) := by
  funext i j
  have hz : ∀ (i : Fin 8192) (k : Fin 256), (F i k : EReal) - (F i k : EReal) = 0 := by
    intro i k; rw [← EReal.coe_sub, sub_self, EReal.coe_zero]
  have h1 : gram (fun i k => (F i k : EReal)) (fun i k => (F i k : EReal) - (F i k : EReal)) i j = 0 := by
    unfold gram; simp only [hz, mul_zero, Finset.sum_const_zero]
  have h2 : gram (fun i k => (F i k : EReal) - (F i k : EReal)) (fun i k => (F i k : EReal)) i j = 0 := by
    unfold gram; simp only [hz, zero_mul, Finset.sum_const_zero]
  unfold logitsK logitsReal
  rw [h1, h2, add_zero, add_zero, gram_coe, ← EReal.coe_mul]

/-! ### Row maximum, shifted logits, exponentials of real logits -/

section
variable (Lr : Fin 8192 → Fin 8192 → ℝ)

/-- The row maximum of real logits is a real. -/
theorem rowMax_coe (i : Fin 8192) : ∃ m : ℝ, rowMax (fun i j => (Lr i j : EReal)) i = (m : EReal) := by
  unfold rowMax
  rw [negInf_eq]
  rcases fold_max_coe Finset.univ (Lr i) with h | h
  · exact absurd h (Finset.univ_nonempty (α := Fin 8192)).ne_empty
  · exact h

/-- The exponentials of the shifted real logits are reals. -/
theorem expo_coe (i : Fin 8192) :
    ∃ E : Fin 8192 → ℝ, ∀ j, expo (fun i j => (Lr i j : EReal)) i j = (E j : EReal) := by
  obtain ⟨m, hm⟩ := rowMax_coe Lr i
  refine ⟨fun j => Real.exp (Lr i j - m), fun j => ?_⟩
  unfold expo shifted
  rw [hm, ← EReal.coe_sub]
  rfl

variable (lab : Fin 8192 → BitVec 32)

/-- neg, as a difference of two sums or as one masked sum. -/
theorem negK_eq_negR : negK (fun i j => (Lr i j : EReal)) lab = negR (fun i j => (Lr i j : EReal)) lab := by
  funext i
  obtain ⟨E, hE⟩ := expo_coe Lr i
  unfold negK negR
  simp only [hE]
  exact sum_sub_sum_ite E (fun j => lab i = lab j)

/-- num, selected by a Boolean or multiplied by the two 0/1 masks. -/
theorem numK_eq_numR : numK (fun i j => (Lr i j : EReal)) lab = numR (fun i j => (Lr i j : EReal)) lab := by
  funext i
  unfold numK numR
  rw [negK_eq_negR Lr lab, zero_add]
  refine Finset.sum_congr rfl fun j _ => ?_
  by_cases h1 : lab i = lab j <;> by_cases h2 : i = j <;> simp [h1, h2, one_sub_one]

end

/-! ### The count of same-class rows -/

/-- A sum over the 8192 rows of a function of the anchor (the row mod 16) is 512 times the sum over the 16 anchors:
    row a + 16·v is view v of anchor a. -/
theorem sum_mod16 (g : Fin 16 → ℝ) :
    ∑ j : Fin 8192, g ⟨j.val % 16, Nat.mod_lt _ (by decide)⟩ = 512 * ∑ a : Fin 16, g a := by
  have h := Equiv.sum_comp (finProdFinEquiv (m := 512) (n := 16))
    (fun j : Fin (512 * 16) => g ⟨j.val % 16, Nat.mod_lt _ (by decide)⟩)
  have h' : ∑ j : Fin 8192, g ⟨j.val % 16, Nat.mod_lt _ (by decide)⟩ = ∑ x : Fin 512 × Fin 16, g x.2 := by
    refine h.symm.trans (Finset.sum_congr rfl fun x _ => ?_)
    congr 1
    apply Fin.ext
    simp [finProdFinEquiv, Nat.add_mul_mod_self_left, Nat.mod_eq_of_lt x.2.2]
  rw [h', Fintype.sum_prod_type]
  simp

/-- den, counted on the 16 anchors or summed over all rows: the diagonal contributes exactly 1. -/
theorem denK_eq_denR (sl : Fin 16 → BitVec 32) : denK sl = denR (labOf sl) := by
  funext i
  unfold denK denR
  have hA : ∀ j : Fin 8192,
      ((if labOf sl i = labOf sl j then (1 : EReal) else 0) * (1 - (if i = j then (1 : EReal) else 0)))
        = (((if labOf sl i = labOf sl j then (1 : ℝ) else 0) - (if i = j then 1 else 0) : ℝ) : EReal) := by
    intro j
    by_cases h2 : i = j
    · subst h2; simp [one_sub_one]
    · by_cases h1 : labOf sl i = labOf sl j <;> simp [h1, h2]
  have hB : ∀ a' : Fin 16, (if labOf sl i = sl a' then (1 : EReal) else 0)
      = ((if labOf sl i = sl a' then (1 : ℝ) else 0 : ℝ) : EReal) := by
    intro a'; split_ifs <;> simp
  have h512 : (512 : EReal) = ((512 : ℝ) : EReal) := by norm_cast
  simp only [hA, hB, coe_sum, zero_add]
  rw [h512, ← EReal.coe_mul, ← EReal.coe_one, ← EReal.coe_sub]
  congr 1
  rw [Finset.sum_sub_distrib, Finset.sum_ite_eq]
  have hs := sum_mod16 (fun a' => if labOf sl i = sl a' then (1 : ℝ) else 0)
  simp only [Finset.mem_univ, if_true]
  rw [← hs]
  rfl

end SpecMath

/-! ### The two results -/

open SpecMath in
/-- On real features, with the dropped part f - f and κ = 1/D, the tiled result is the dense result. -/
theorem resK_eq_resR (f : Fin 8192 → Fin 256 → EReal) (sl : Fin 16 → BitVec 32)
    (hf : ∀ i k, ∃ r : ℝ, f i k = (r : EReal)) :
    resK kTemp f (fun i k => f i k - f i k) sl = resR f sl := by
  choose F hF using hf
  obtain rfl : f = fun i k => (F i k : EReal) := funext fun i => funext fun k => hF i k
  unfold resK resR
  rw [logitsK_coe F, logitsR_coe F, numK_eq_numR, denK_eq_denR]

end Cert.Contrast

end
-- ==== Proof.Kernel.Data.lean ====
/-
  What the tiled loss kernel's pipeline holds, as data: each window's block of its array at a grid point, the one store
  of the body as a piece over the payloads of the loaded blocks, and the per-point contents of every staging buffer.

  The grid has 32 points; point t handles rows 256 t … 256 t + 255. Windows 0 and 2 are the row blocks of the two feature
  parts, windows 1 and 3 the whole feature parts (read by every point, fetched once), window 4 the row block of the class
  column, window 5 the whole class row, window 6 the block of 256 results. Windows 0 and 1 read ONE array, and so do
  windows 2 and 3: each pair holds its array at the two halves of the full share.
-/
import proofs.«419777_j60876866453606_3_alg».proof.Proof.Gen.Kernel.Launch
import proofs.«419777_j60876866453606_3_alg».proof.Proof.Gen.Kernel.Skeleton
import proofs.«419777_j60876866453606_3_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.Kernel Cert.Kernel.Gen

variable {F : FTy → Type} [FloatOps F]

-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rq : Rect S256x256 := Rect.unit (s := S256x256) ![0, 0] S256x256.size inb_S256x256_S256x256_0_0
abbrev rk : Rect S8192x256 := Rect.unit (s := S8192x256) ![0, 0] S8192x256.size inb_S8192x256_S8192x256_0_0
abbrev rlr : Rect S256x1 := Rect.unit (s := S256x1) ![0, 0] S256x1.size inb_S256x1_S256x1_0_0
abbrev rlc : Rect S1x8192 := Rect.unit (s := S1x8192) ![0, 0] S1x8192.size inb_S1x8192_S1x8192_0_0
abbrev ro : Rect S256 := Rect.unit (s := S256) ![0] S256.size inb_S256_S256_0

/-- The 256 results of a point, from the six input blocks and the point's coordinate (the stored value tests
    the global row number against the column number). -/
def pay6 (i : grid0.Coords) (x0 : Vec F S256x256 .bf16) (x1 : Vec F S8192x256 .bf16) (x2 : Vec F S256x256 .bf16)
    (x3 : Vec F S8192x256 .bf16) (x4 : Vec F S256x1 .i32) (x5 : Vec F S1x8192 .i32) : FVec F S256 .f32 :=
  k0_pay1 (BitVec.ofNat 32 (i 0).val) (k0_pay2 (View.ld x4 rlr) (View.ld x5 rlc))
    (k0_pay3 (View.ld x0 rq) (View.ld x2 rq) (View.ld x1 rk) (View.ld x3 rk) (View.ld x4 rlr) (View.ld x5 rlc)) 256#32

/-- Window 6's staging buffer after the body: its one store as a piece. -/
def out0_6 (i : grid0.Coords) (x0 : Vec F S256x256 .bf16) (x1 : Vec F S8192x256 .bf16) (x2 : Vec F S256x256 .bf16)
    (x3 : Vec F S8192x256 .bf16) (x4 : Vec F S256x1 .i32) (x5 : Vec F S1x8192 .i32) : Vec F S256 .f32 :=
  View.canon [⟨ro, pay6 i x0 x1 x2 x3 x4 x5⟩]

/-- The one store covers the buffer. -/
theorem cover0_6 (p0 : Vec F S256 .f32) (y : S256.Idx) :
    ∃ pc ∈ ([⟨ro, p0⟩] : List (View.Piece (Elt F) S256 .f32)), y ∈ pc.1.set :=
  View.cover_of_tiled [⟨ro, p0⟩] S256.size (by rfl) y

/-- The proof data of the pipeline on core c: the arrays as the region finds them; after the body at point t each
    input's buffer at its block and the output's at out0_6 of the input blocks; the invariant the scoped rest and the
    generator register, untouched; nothing owed; the two shared arrays at half shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (grid0.coords t) (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (grid0.coords t) (iblk0 V c 0 t) (iblk0 V c 1 t) (iblk0 V c 2 t) (iblk0 V c 3 t) (iblk0 V c 4 t) (iblk0 V c 5 t) := by
  dsimp only [dat0]

end Cert.Kernel.Hand

end
-- ==== Proof.Kernel.Body.lean ====
/-
  The body of the tiled loss kernel at a grid point: it loads the six input blocks whole, computes, loads the result
  buffer (a value it does not use) and stores the 256 results over it whole. Handed the inputs' staging buffers at
  their blocks and the result's at anything, it leaves the inputs' as they were and the result's at the one store's piece.
-/
import proofs.«419777_j60876866453606_3_alg».proof.Proof.Kernel.Data
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input's staging buffer

An input's buffer is left by the body as it was, and the pipeline refetches it exactly when its block index moves; so at
every point it holds the window's block there, fetched at that point or not. For the three row-block windows the index
moves at every point; for the three whole-array windows it never moves after the first point. -/

/-- The row block of the first feature part is in its buffer at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The whole first feature part, fetched once, is in its buffer at every point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The row block of the second feature part is in its buffer at every point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The whole second feature part, fetched once, is in its buffer at every point. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The row block of the class column is in its buffer at every point. -/
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-- The whole class row, fetched once, is in its buffer at every point. -/
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-! ## The body's triple -/

set_option maxHeartbeats 1000000 in
/-- The body at coordinate i on whole staging memrefs: the six inputs' at read contents x0 … x5, the result's at
    anything. It reads each input whole, reads the result's buffer (a value nothing uses) and then stores the 256
    results over all of it; so it runs to a continuation that holds the inputs' as they were and the result's at the
    one store's piece, whatever that buffer held. -/
theorem sound_kernel0 (c : Dev nD) (E : Set ℕ) (i : grid0.Coords)
    (arg1 : Memref sig .tc .vmem S256x256 .bf16) (harg1 : arg1.IsWhole) (arg2 : Memref sig .tc .vmem S8192x256 .bf16) (harg2 : arg2.IsWhole)
    (arg3 : Memref sig .tc .vmem S256x256 .bf16) (harg3 : arg3.IsWhole) (arg4 : Memref sig .tc .vmem S8192x256 .bf16) (harg4 : arg4.IsWhole)
    (arg5 : Memref sig .tc .vmem S256x1 .i32) (harg5 : arg5.IsWhole) (arg6 : Memref sig .tc .vmem S1x8192 .i32) (harg6 : arg6.IsWhole)
    (arg7 : Memref sig .tc .vmem S256 .f32) (harg7 : arg7.IsWhole)
    (x0 : Vec F S256x256 .bf16) (x1 : Vec F S8192x256 .bf16) (x2 : Vec F S256x256 .bf16) (x3 : Vec F S8192x256 .bf16)
    (x4 : Vec F S256x1 .i32) (x5 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 i x0 x1 x2 x3 x4 x5)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_unfold [cc0__fused_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The body obligation, at a generic point -/

/-- What the body is handed at point t: the invariant, what the core owes, and each window's current staging buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it hands back: the invariant and the debt at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point. Each input's buffer holds its block, the result's holds something; so the triple above applies
    at the point's coordinate, and what it leaves in the result's buffer is what the proof data name. The invariant and
    the core's debt pass through untouched: the body makes no transfer and touches no other buffer. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Vals.lean ====
/-
  The contents of a core's buffers at each boundary of the program: at launch, after the host operations before the
  kernel region (the region's entry), at the region's exit (only the result array has changed: it holds what the 32
  write-backs left), and after the host operations that follow.
-/
import proofs.«419777_j60876866453606_3_alg».proof.Proof.Kernel.Data
import Idealize.ShloMosaic.Lib.Pipeline.Regions
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core c's buffers at launch. -/
abbrev W0 (c : Dev nD) : Valuation τ sig (Elt F) := fun b => m (c, b)
/-- After the host operations before the region (the region's entry). -/
abbrev W1 (c : Dev nD) : Valuation τ sig (Elt F) := StableHlo.after hostOps0 (W0 m c)
/-- The same read at the TensorCore's references (what the proof data take). -/
abbrev V1 : (c : Dev nD) → (b : Ref sig .tc) → Buf (Elt F) ((c : Thread nD τ).loc b) := fun c b => W1 m c b
/-- At the region's exit: the result array at what the write-backs leave, every other buffer as entered. -/
def W2 (c : Dev nD) : Valuation τ sig (Elt F) :=
  Function.update (W1 m c) (Proc.devRef .tc main_v41) ((dat0 (V1 m) c).arrAt 6 cfg0.N)
/-- After the host operations that follow the region. -/
abbrev W3 (c : Dev nD) : Valuation τ sig (Elt F) := StableHlo.after hostOps1 (W2 m c)

theorem W2_v41 (c : Dev nD) : W2 m c (Proc.devRef .tc main_v41) = (dat0 (V1 m) c).arrAt 6 cfg0.N := by
  unfold W2; exact Function.update_self _ _ _

theorem W2_of_ne (c : Dev nD) (b : Ref sig .tc) (hb : b ≠ main_v41) :
    W2 m c (Proc.devRef .tc b) = W1 m c (Proc.devRef .tc b) := by
  unfold W2; exact Function.update_of_ne (StableHlo.devRef_ne_of_ne hb) _ _

end Cert.Kernel.Hand

end
-- ==== Proof.Kernel.Run.lean ====
/-
  The run of the whole program on a core: 48 host operations, the one kernel region, 10 host operations, as three
  segments over the thread state "every unscoped buffer at the boundary's contents, the generator register at some
  state, nothing owed". The kernel's pipeline reads each of the two feature parts through TWO windows (the row block
  of a point and the whole part), so its seven windows sit on five buffers: at the region's entry the full share of
  each shared buffer is halved between its two windows, at the exit the halves are joined again. Every final state then
  has every unscoped buffer at the last contents of the fold, and the four arguments at what the launch memory held.
-/
import proofs.«419777_j60876866453606_3_alg».proof.Proof.Kernel.Body
import proofs.«419777_j60876866453606_3_alg».proof.Proof.Kernel.Vals
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Frame
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- No operation of a stretch writes the reference at hand: each operation's one written buffer is another reference. -/
local macro "not_written" : tactic => `(tactic| (
  refine List.forall_iff_forall_mem.mp ?_
  simp only [hostOps0, hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

namespace Run

/-! ## The windows' arrays among the core's unscoped buffers

The pipeline's seven windows sit on FIVE buffers: windows 0 and 1 read the first feature part, windows 2 and 3 the
second, windows 4 and 5 the class column and the class row, window 6 writes the results. The launch hands over each of
the five whole at the full share; the pipeline holds window 0's and window 2's array at the left half of the full share
and window 1's and window 3's at the right half, the other three at the full share. The two forms are interchangeable
whenever the windows on one buffer hold the same contents. -/

section Arrays

/-- Two resources each held as two parts, beside three more: parted or whole, it is the same holding. -/
theorem halves_iff {M : Type} [URA M] {P Pl Pr Q Ql Qr A B C : sProp M}
    (hP : P ⊣⊢ iprop(Pl ∗ Pr)) (hQ : Q ⊣⊢ iprop(Ql ∗ Qr)) :
    iprop(Pl ∗ Pr ∗ Ql ∗ Qr ∗ A ∗ B ∗ C) ⊣⊢ iprop(P ∗ Q ∗ A ∗ B ∗ C) := by
  refine ⟨?_, ?_⟩
  · iintro ⟨H0, H1, H2, H3, H4, H5, H6⟩
    isplitl [H0 H1]
    · iapply hP.2; isplitl [H0] <;> iassumption
    isplitl [H2 H3]
    · iapply hQ.2; isplitl [H2] <;> iassumption
    isplitl [H4]; · iexact H4
    isplitl [H5] <;> iassumption
  · iintro ⟨Ha, Hb, H4, H5, H6⟩
    ihave Ha := hP.1 $$ Ha
    icases Ha with ⟨H0, H1⟩
    ihave Hb := hQ.1 $$ Hb
    icases Hb with ⟨H2, H3⟩
    isplitl [H0]; · iexact H0
    isplitl [H1]; · iexact H1
    isplitl [H2]; · iexact H2
    isplitl [H3]; · iexact H3
    isplitl [H4]; · iexact H4
    isplitl [H5] <;> iassumption

variable (Vd : (c : Dev nD) → (b : Ref sig .tc) → Buf (Elt F) ((c : Thread nD τ).loc b))

/-- The five buffers behind the seven windows, -/
theorem arrRefs0 : Finset.univ.image (Pipeline.arrRef spec0)
    = ({main_v37, main_v40, main_v21, main_v22, main_v41} : Finset (Ref sig .tc)) := by decide
/-- pairwise distinct. -/
theorem v37_nmem : main_v37 ∉ ({main_v40, main_v21, main_v22, main_v41} : Finset (Ref sig .tc)) := by decide
theorem v40_nmem : main_v40 ∉ ({main_v21, main_v22, main_v41} : Finset (Ref sig .tc)) := by decide
theorem v21_nmem : main_v21 ∉ ({main_v22, main_v41} : Finset (Ref sig .tc)) := by decide
theorem v22_nmem : main_v22 ∉ ({main_v41} : Finset (Ref sig .tc)) := by decide

/-- What the launch hands the pipeline, buffer by buffer. -/
theorem arrBufs0_eq (c : Dev nD) (V : (b : Ref sig .tc) → Buf (Elt F) ((c : Thread nD τ).loc b)) :
    (Pipeline.arrBufs spec0 c V : sProp 𝕄)
      = iprop((((c : Thread nD τ).loc main_v37) ↦{fullShare} V main_v37)
          ∗ (((c : Thread nD τ).loc main_v40) ↦{fullShare} V main_v40)
          ∗ (((c : Thread nD τ).loc main_v21) ↦{fullShare} V main_v21)
          ∗ (((c : Thread nD τ).loc main_v22) ↦{fullShare} V main_v22)
          ∗ (((c : Thread nD τ).loc main_v41) ↦{fullShare} V main_v41)) := by
  unfold Pipeline.arrBufs
  rw [arrRefs0, bigSep_insert v37_nmem, bigSep_insert v40_nmem, bigSep_insert v21_nmem, bigSep_insert v22_nmem, bigSep_singleton]
  rfl

/-- Every window's array is a whole buffer: the pipeline's holding of its arrays, window by window, each at its share. -/
theorem arrays0_eq (c : Dev nD) (Fw : (w : Fin cfg0.W) → Buf (Elt F) ((cfg0.win w).arr.view.loc (c : Thread nD τ))) :
    ((dat0 Vd c).arrays Fw : sProp 𝕄)
      = bigSep Finset.univ fun w : Fin cfg0.W =>
          (((c : Thread nD τ).loc (Pipeline.arrRef spec0 w)) ↦{(dat0 Vd c).share w} Fw w : sProp 𝕄) := by
  unfold Pipeline.Dat.arrays
  exact bigSep_congr fun w _ => by rw [(arr_whole0 w).set_eq_univ]

/-- The same with the windows, their buffers and their shares spelt out. -/
theorem arrays0_explicit (c : Dev nD) (Fw : (w : Fin cfg0.W) → Buf (Elt F) ((cfg0.win w).arr.view.loc (c : Thread nD τ))) :
    ((dat0 Vd c).arrays Fw : sProp 𝕄)
      = iprop((((c : Thread nD τ).loc main_v37) ↦{fullShare.left} Fw 0)
          ∗ (((c : Thread nD τ).loc main_v37) ↦{fullShare.right} Fw 1)
          ∗ (((c : Thread nD τ).loc main_v40) ↦{fullShare.left} Fw 2)
          ∗ (((c : Thread nD τ).loc main_v40) ↦{fullShare.right} Fw 3)
          ∗ (((c : Thread nD τ).loc main_v21) ↦{fullShare} Fw 4)
          ∗ (((c : Thread nD τ).loc main_v22) ↦{fullShare} Fw 5)
          ∗ (((c : Thread nD τ).loc main_v41) ↦{fullShare} Fw 6)) := by
  rw [arrays0_eq, bigSep_W0]
  rfl

/-- The pipeline's holding of its arrays at contents `Fw` is the five buffers whole at the full share at contents `V`,
    when each window's contents are its buffer's under `V`: the two halves of a shared buffer make its full share. -/
theorem arrays0_iff (c : Dev nD)
    (Fw : (w : Fin cfg0.W) → Buf (Elt F) ((cfg0.win w).arr.view.loc (c : Thread nD τ)))
    (V : (b : Ref sig .tc) → Buf (Elt F) ((c : Thread nD τ).loc b))
    (hF : ∀ w, Fw w = V (Pipeline.arrRef spec0 w)) :
    ((dat0 Vd c).arrays Fw : sProp 𝕄) ⊣⊢ Pipeline.arrBufs spec0 c V := by
  rw [arrays0_explicit, arrBufs0_eq, hF 0, hF 1, hF 2, hF 3, hF 4, hF 5, hF 6]
  exact halves_iff (pointsTo_share (PosShare.mem_left_op_right fullShare)) (pointsTo_share (PosShare.mem_left_op_right fullShare))

/-- ENTRY: every unscoped buffer at contents `W` is the pipeline's arrays at the windows' contents under `W` beside the
    unscoped buffers that are no window's array. -/
theorem entry_gen (c : Dev nD) (W : Valuation τ sig (Elt F))
    (Fw : (w : Fin cfg0.W) → Buf (Elt F) ((cfg0.win w).arr.view.loc (c : Thread nD τ)))
    (hF : ∀ w, Fw w = W (Proc.devRef .tc (Pipeline.arrRef spec0 w))) :
    (StableHlo.held (c : Thread nD τ) (Pipeline.ucRefs τ sig) W : sProp 𝕄)
      ⊢ iprop((dat0 Vd c).arrays Fw
          ∗ Pipeline.unscopedRest (Ix := Unit) (Name := ℕ) (U := UR sig nD τ) (Lvl := ℕ) spec0 c (fun b => W b)) := by
  rw [← Pipeline.unscopedBufs_held c W, Pipeline.unscopedBufs_split₀ cfgs 0 winFacts₀0.arr_unscoped c]
  exact sep_mono (arrays0_iff Vd c Fw (fun b => W b) hF).2 .rfl

/-- EXIT: the pipeline's arrays at contents `Fw` beside the bypassed buffers at `W` are every unscoped buffer at any
    contents `W'` that has the arrays' buffers at `Fw` and agrees with `W` off them. -/
theorem exit_gen (c : Dev nD) (W W' : Valuation τ sig (Elt F))
    (Fw : (w : Fin cfg0.W) → Buf (Elt F) ((cfg0.win w).arr.view.loc (c : Thread nD τ)))
    (hF : ∀ w, Fw w = W' (Proc.devRef .tc (Pipeline.arrRef spec0 w)))
    (hrest : ∀ b : Ref sig .tc, b ∉ Finset.univ.image (Pipeline.arrRef spec0) → W' (Proc.devRef .tc b) = W (Proc.devRef .tc b)) :
    iprop((dat0 Vd c).arrays Fw
        ∗ Pipeline.unscopedRest (Ix := Unit) (Name := ℕ) (U := UR sig nD τ) (Lvl := ℕ) spec0 c (fun b => W b))
      ⊢ (StableHlo.held (c : Thread nD τ) (Pipeline.ucRefs τ sig) W' : sProp 𝕄) := by
  rw [← Pipeline.unscopedBufs_held c W', Pipeline.unscopedBufs_split₀ cfgs 0 winFacts₀0.arr_unscoped c]
  refine sep_mono (arrays0_iff Vd c Fw (fun b => W' b) hF).1 (Entails.of_eq ?_)
  unfold Pipeline.unscopedRest
  exact bigSep_congr fun b hb => by beta_reduce; rw [hrest b (Finset.mem_sdiff.mp hb).2]

end Arrays

variable (m : (ℓ : Loc nD τ sig) → Buf (Elt F) ℓ) (ρ : Dev nD → PrngReg)

/-! ## The region's exit contents -/

/-- Every window but the last is an input, on another buffer than the result array. -/
theorem inputs0 : ∀ w : Fin cfg0.W, w ≠ 6 → (cfg0.win w).isOut = false ∧ Pipeline.arrRef spec0 w ≠ main_v41 := by decide

/-- At the exit each window's array holds: an input what it held at entry, the result array what the 32 write-backs left. -/
theorem exit_contents (c : Dev nD) (w : Fin cfg0.W) :
    (dat0 (V1 m) c).arrAt w cfg0.N = W2 m c (Proc.devRef .tc (Pipeline.arrRef spec0 w)) := by
  by_cases hw : w = 6
  · subst hw; exact (W2_v41 m c).symm
  · obtain ⟨hin, hne⟩ := inputs0 w hw
    exact ((dat0 (V1 m) c).arrAt_in w hin _).trans (W2_of_ne m c _ hne).symm

/-- Off the windows' arrays the exit contents are the entry contents: only the result array changed. -/
theorem exit_rest (c : Dev nD) (b : Ref sig .tc) (hb : b ∉ Finset.univ.image (Pipeline.arrRef spec0)) :
    W2 m c (Proc.devRef .tc b) = W1 m c (Proc.devRef .tc b) :=
  W2_of_ne m c b fun e => hb (e ▸ Finset.mem_image.mpr ⟨6, Finset.mem_univ _, rfl⟩)

/-! ## The arguments end as launched

No host operation writes an argument, and the region writes only its result array: the fold of contents at an
argument's buffer walks back to the launch memory. -/

/-- A buffer that neither stretch of host operations writes and that is not the region's result holds at the end what
    the launch memory held. -/
theorem W3_of_untouched (c : Dev nD) (b : Ref sig .tc)
    (h0 : ∀ op ∈ (hostOps0 : List (HloOp τ sig (Elt F))), Proc.devRef .tc b ∉ op.writes)
    (h1 : ∀ op ∈ (hostOps1 : List (HloOp τ sig (Elt F))), Proc.devRef .tc b ∉ op.writes)
    (hb : b ≠ main_v41) : W3 m c (Proc.devRef .tc b) = m ((c : Thread nD τ).loc b) :=
  calc W3 m c (Proc.devRef .tc b)
    _ = W2 m c (Proc.devRef .tc b) := StableHlo.after_of_forall_not_mem _ _ h1
    _ = W1 m c (Proc.devRef .tc b) := W2_of_ne m c b hb
    _ = W0 m c (Proc.devRef .tc b) := StableHlo.after_of_forall_not_mem _ _ h0
    _ = m ((c : Thread nD τ).loc b) := rfl

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
/-- No core owes another anything: no level is assigned. -/
abbrev L : GSem nD τ sig → Finset Unit := fun _ => ∅
abbrev lv : GSem nD τ sig → Unit → ℕ := fun _ _ => 0
/-- The core's generator register at some state, -/
abbrev Rg (c : Dev nD) : sProp 𝕄 := iprop(∃ r, prngReg c r)
/-- and the core owing nothing, whatever pairs its waits have recorded. -/
abbrev Ro (c : Dev nD) : sProp 𝕄 := iprop(∃ W, owes (c : Thread nD τ) (0 : CellTallies nD τ sig Unit) W)
/-- What rides beside the buffers through every segment: both. -/
abbrev R (c : Dev nD) : sProp 𝕄 := iprop(Rg c ∗ Ro c)

/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The last thread state without the `owes`: every unscoped buffer at the last contents, the generator register at
    some state. -/
abbrev Tₙ (c : Dev nD) : sProp 𝕄 := iprop(StableHlo.held (c : Thread nD τ) (Pipeline.ucRefs τ sig) (W3 m c) ∗ Rg c)

/-- The core owing nothing is what the pipeline's loop takes as its `owes` at any point: the proof data owe nothing
    and bound the recorded pairs by everything. -/
theorem owes_in (c : Dev nD) (t : Fin (cfg0.N + 1)) : Ro c ⊢ ((dat0 (V1 m) c).owesAt () t : sProp 𝕄) := by
  iintro ⟨%W, HO⟩
  iexists W
  isplitr
  · ipureintro; exact fun x _ => Or.inl (Set.mem_univ x)
  iexact HO
/-- And back. -/
theorem owes_out (c : Dev nD) (t : Fin (cfg0.N + 1)) : ((dat0 (V1 m) c).owesAt () t : sProp 𝕄) ⊢ Ro c := by
  iintro ⟨%W, -, HO⟩
  iexists W
  iexact HO

/-! ## The kernel region as a segment -/

set_option backward.isDefEq.respectTransparency.types false in
/-- The region over the thread state: entered from every unscoped buffer at `W1`, left at `W2`. Its arrays are split
    out of the unscoped buffers, the two shared ones halved between their windows (`entry_gen`), and put back at the
    exit contents (`exit_gen`); the generator register goes into the invariant and comes out; nothing is owed; the
    kernel has no semaphore of its own and the pipeline no prefetched table. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := Rg c
  Y c := Rg c
  Z c := Pipeline.unscopedRest (Ix := Unit) (Name := ℕ) (U := UR sig nD τ) (Lvl := ℕ) spec0 c (V1 m c)
  hentry c := by
    have hsplit := entry_gen (V1 m) c (W1 m c) ((dat0 (V1 m) c).arrAt · 0) fun _ => rfl
    have hnone : (BI.emp : sProp 𝕄) ⊢ Pipeline.prefHeld (pcfgs (F := F) 0).pre c (fun _ => fullShare) (adm (F := F) 0).1 := .rfl
    iintro ⟨⟨Hheld, Hg, Ho⟩, -, -⟩
    ihave Hsp := hsplit $$ Hheld
    icases Hsp with ⟨Harr, Hrest⟩
    imodintro
    isplitl [Harr]; · iexact Harr
    isplitr
    · iapply hnone; iempintro
    isplitl [Ho]
    · iapply (owes_in m c 0); iexact Ho
    isplitl [Hg] <;> iassumption
  hin c := by
    show iprop(Rg c ∗ _ ∗ Pipeline.scopedRest spec0 c) ⊢ Pipeline.ΦA spec0 c
    unfold Pipeline.ΦA
    iintro ⟨Hg, -, Hs⟩
    isplitl [Hs] <;> iassumption
  hout c := by
    show Pipeline.ΦA spec0 c ⊢ iprop(Rg c ∗ _ ∗ Pipeline.scopedRest spec0 c)
    rw [Pipeline.ownSems0_none]
    unfold Pipeline.ΦA
    iintro ⟨Hs, Hg⟩
    isplitl [Hg]; · iexact Hg
    isplitr; · iempintro
    iexact Hs
  hexit c := by
    have hjoin := exit_gen (V1 m) c (W1 m c) (W2 m c) ((dat0 (V1 m) c).arrAt · cfg0.N) (exit_contents m c) (exit_rest m c)
    iintro ⟨Harr, Ho, Hg, Hrest⟩
    imodintro
    isplitl [Harr Hrest]
    · iapply hjoin
      isplitl [Harr]; · iexact Harr
      iexact Hrest
    isplitl [Hg]; · iexact Hg
    iapply (owes_out m c (Fin.last _)); iexact Ho

/-! ## @main as segments, and the launch -/

/-- @main's three segments in order: the host stretch before the kernel from the launch contents, the kernel region,
    the host stretch after it from the region's exit contents. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
/-- @main IS the run of the segments. -/
theorem main_run (c : Dev nD) : main (F := F) c = Pipeline.Seg.run (segs m) := (main_chain c).trans (by chain_rfl)

/-- The launch element is the pipeline library's, held whole; no core gets a ghost resource of its own. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const, ownU_emb₁]
  iintro Hu
  imodintro
  isplitl [Hu]; · iexact Hu
  iempintro

end Run

open Run

variable (m : (ℓ : Loc nD τ sig) → Buf (Elt F) ℓ) (ρ : Dev nD → PrngReg)

/-! ## The four arguments at the end, the references the thread state holds, and the run -/

theorem W3_main_arg0 (c : Dev nD) : W3 m c (Proc.devRef .tc main_arg0) = m ((c : Thread nD τ).loc main_arg0) :=
  W3_of_untouched m c main_arg0 (by not_written) (by not_written) (by decide)
theorem W3_main_arg1 (c : Dev nD) : W3 m c (Proc.devRef .tc main_arg1) = m ((c : Thread nD τ).loc main_arg1) :=
  W3_of_untouched m c main_arg1 (by not_written) (by not_written) (by decide)
theorem W3_main_arg2 (c : Dev nD) : W3 m c (Proc.devRef .tc main_arg2) = m ((c : Thread nD τ).loc main_arg2) :=
  W3_of_untouched m c main_arg2 (by not_written) (by not_written) (by decide)
theorem W3_main_arg3 (c : Dev nD) : W3 m c (Proc.devRef .tc main_arg3) = m ((c : Thread nD τ).loc main_arg3) :=
  W3_of_untouched m c main_arg3 (by not_written) (by not_written) (by decide)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main on the TensorCore terminates,
    nothing faulting, and every final state has every unscoped buffer at the last contents of the fold, `W3`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_elem)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hheld, -, Ho, -, Hg, -⟩, -⟩
      imodintro
      isplitl [Hheld]; · iexact Hheld
      isplitl [Hg]
      · iexists _; iexact Hg
      iexists ∅; iexact Ho)
    (QY := fun c s => ∀ b ∈ Pipeline.ucRefs τ sig, s.mem (((c : Thread nD τ)).1, b) = W3 m c b)
    (hfin := fun c s' => by
      iintro ⟨⟨Hheld, -⟩, HSI⟩
      unfold StableHlo.held
      imodintro
      iapply (pointsTo_read_all (Pipeline.ucRefs τ sig) (fun b => (((c : Thread nD τ)).1, b)) (W3 m c) s')
      isplitl [Hheld] <;> iassumption)
    (hQ := fun s h => h)

end Cert.Kernel.Hand

end
-- ==== Proof.KernelIdeal.Data.lean ====
/-
  What the tiled loss kernel's pipeline holds, as data: each window's block of its array at a grid point, the one store
  of the body as a piece over the payloads of the loaded blocks, and the per-point contents of every staging buffer.

  The grid has 32 points; point t handles rows 256 t … 256 t + 255. Windows 0 and 2 are the row blocks of the two feature
  parts, windows 1 and 3 the whole feature parts (read by every point, fetched once), window 4 the row block of the class
  column, window 5 the whole class row, window 6 the block of 256 results. Windows 0 and 1 read ONE array, and so do
  windows 2 and 3: each pair holds its array at the two halves of the full share.
-/
import proofs.«419777_j60876866453606_3_alg».proof.Proof.Gen.KernelIdeal.Launch
import proofs.«419777_j60876866453606_3_alg».proof.Proof.Gen.KernelIdeal.Skeleton
import proofs.«419777_j60876866453606_3_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.KernelIdeal Cert.KernelIdeal.Gen

variable {F : FTy → Type} [FloatOps F] [Named F]

-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rq : Rect S256x256 := Rect.unit (s := S256x256) ![0, 0] S256x256.size inb_S256x256_S256x256_0_0
abbrev rk : Rect S8192x256 := Rect.unit (s := S8192x256) ![0, 0] S8192x256.size inb_S8192x256_S8192x256_0_0
abbrev rlr : Rect S256x1 := Rect.unit (s := S256x1) ![0, 0] S256x1.size inb_S256x1_S256x1_0_0
abbrev rlc : Rect S1x8192 := Rect.unit (s := S1x8192) ![0, 0] S1x8192.size inb_S1x8192_S1x8192_0_0
abbrev ro : Rect S256 := Rect.unit (s := S256) ![0] S256.size inb_S256_S256_0

/-- The 256 results of a point, from the six input blocks and the point's coordinate (the stored value tests
    the global row number against the column number). -/
def pay6 (i : grid0.Coords) (x0 : Vec F S256x256 .bf16) (x1 : Vec F S8192x256 .bf16) (x2 : Vec F S256x256 .bf16)
    (x3 : Vec F S8192x256 .bf16) (x4 : Vec F S256x1 .i32) (x5 : Vec F S1x8192 .i32) : FVec F S256 .f32 :=
  k0_pay1 (BitVec.ofNat 32 (i 0).val) (k0_pay2 (View.ld x4 rlr) (View.ld x5 rlc))
    (k0_pay3 (View.ld x0 rq) (View.ld x2 rq) (View.ld x1 rk) (View.ld x3 rk) (View.ld x4 rlr) (View.ld x5 rlc)) 256#32

/-- Window 6's staging buffer after the body: its one store as a piece. -/
def out0_6 (i : grid0.Coords) (x0 : Vec F S256x256 .bf16) (x1 : Vec F S8192x256 .bf16) (x2 : Vec F S256x256 .bf16)
    (x3 : Vec F S8192x256 .bf16) (x4 : Vec F S256x1 .i32) (x5 : Vec F S1x8192 .i32) : Vec F S256 .f32 :=
  View.canon [⟨ro, pay6 i x0 x1 x2 x3 x4 x5⟩]

/-- The one store covers the buffer. -/
theorem cover0_6 (p0 : Vec F S256 .f32) (y : S256.Idx) :
    ∃ pc ∈ ([⟨ro, p0⟩] : List (View.Piece (Elt F) S256 .f32)), y ∈ pc.1.set :=
  View.cover_of_tiled [⟨ro, p0⟩] S256.size (by rfl) y

/-- The proof data of the pipeline on core c: the arrays as the region finds them; after the body at point t each
    input's buffer at its block and the output's at out0_6 of the input blocks; the invariant the scoped rest and the
    generator register, untouched; nothing owed; the two shared arrays at half shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (grid0.coords t) (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (grid0.coords t) (iblk0 V c 0 t) (iblk0 V c 1 t) (iblk0 V c 2 t) (iblk0 V c 3 t) (iblk0 V c 4 t) (iblk0 V c 5 t) := by
  dsimp only [dat0]

end Cert.KernelIdeal.Hand

end
-- ==== Proof.KernelIdeal.Body.lean ====
/-
  The body of the tiled loss kernel at a grid point: it loads the six input blocks whole, computes, loads the result
  buffer (a value it does not use) and stores the 256 results over it whole. Handed the inputs' staging buffers at
  their blocks and the result's at anything, it leaves the inputs' as they were and the result's at the one store's piece.
-/
import proofs.«419777_j60876866453606_3_alg».proof.Proof.KernelIdeal.Data
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What the body finds in each input's staging buffer

An input's buffer is left by the body as it was, and the pipeline refetches it exactly when its block index moves; so at
every point it holds the window's block there, fetched at that point or not. For the three row-block windows the index
moves at every point; for the three whole-array windows it never moves after the first point. -/

/-- The row block of the first feature part is in its buffer at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The whole first feature part, fetched once, is in its buffer at every point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The row block of the second feature part is in its buffer at every point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The whole second feature part, fetched once, is in its buffer at every point. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The row block of the class column is in its buffer at every point. -/
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-- The whole class row, fetched once, is in its buffer at every point. -/
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-! ## The body's triple -/

set_option maxHeartbeats 1000000 in
/-- The body at coordinate i on whole staging memrefs: the six inputs' at read contents x0 … x5, the result's at
    anything. It reads each input whole, reads the result's buffer (a value nothing uses) and then stores the 256
    results over all of it; so it runs to a continuation that holds the inputs' as they were and the result's at the
    one store's piece, whatever that buffer held. -/
theorem sound_kernel0 (c : Dev nD) (E : Set ℕ) (i : grid0.Coords)
    (arg1 : Memref sig .tc .vmem S256x256 .bf16) (harg1 : arg1.IsWhole) (arg2 : Memref sig .tc .vmem S8192x256 .bf16) (harg2 : arg2.IsWhole)
    (arg3 : Memref sig .tc .vmem S256x256 .bf16) (harg3 : arg3.IsWhole) (arg4 : Memref sig .tc .vmem S8192x256 .bf16) (harg4 : arg4.IsWhole)
    (arg5 : Memref sig .tc .vmem S256x1 .i32) (harg5 : arg5.IsWhole) (arg6 : Memref sig .tc .vmem S1x8192 .i32) (harg6 : arg6.IsWhole)
    (arg7 : Memref sig .tc .vmem S256 .f32) (harg7 : arg7.IsWhole)
    (x0 : Vec F S256x256 .bf16) (x1 : Vec F S8192x256 .bf16) (x2 : Vec F S256x256 .bf16) (x3 : Vec F S8192x256 .bf16)
    (x4 : Vec F S256x1 .i32) (x5 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 i x0 x1 x2 x3 x4 x5)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_unfold [cc0__fused_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The body obligation, at a generic point -/

/-- What the body is handed at point t: the invariant, what the core owes, and each window's current staging buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it hands back: the invariant and the debt at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point. Each input's buffer holds its block, the result's holds something; so the triple above applies
    at the point's coordinate, and what it leaves in the result's buffer is what the proof data name. The invariant and
    the core's debt pass through untouched: the body makes no transfer and touches no other buffer. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Vals.lean ====
/-
  The contents of a core's buffers at each boundary of the program: at launch, after the host operations before the
  kernel region (the region's entry), at the region's exit (only the result array has changed: it holds what the 32
  write-backs left), and after the host operations that follow.
-/
import proofs.«419777_j60876866453606_3_alg».proof.Proof.KernelIdeal.Data
import Idealize.ShloMosaic.Lib.Pipeline.Regions
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

/-- Core c's buffers at launch. -/
abbrev W0 (c : Dev nD) : Valuation τ sig (Elt F) := fun b => m (c, b)
/-- After the host operations before the region (the region's entry). -/
abbrev W1 (c : Dev nD) : Valuation τ sig (Elt F) := StableHlo.after hostOps0 (W0 m c)
/-- The same read at the TensorCore's references (what the proof data take). -/
abbrev V1 : (c : Dev nD) → (b : Ref sig .tc) → Buf (Elt F) ((c : Thread nD τ).loc b) := fun c b => W1 m c b
/-- At the region's exit: the result array at what the write-backs leave, every other buffer as entered. -/
def W2 (c : Dev nD) : Valuation τ sig (Elt F) :=
  Function.update (W1 m c) (Proc.devRef .tc main_v41) ((dat0 (V1 m) c).arrAt 6 cfg0.N)
/-- After the host operations that follow the region. -/
abbrev W3 (c : Dev nD) : Valuation τ sig (Elt F) := StableHlo.after hostOps1 (W2 m c)

theorem W2_v41 (c : Dev nD) : W2 m c (Proc.devRef .tc main_v41) = (dat0 (V1 m) c).arrAt 6 cfg0.N := by
  unfold W2; exact Function.update_self _ _ _

theorem W2_of_ne (c : Dev nD) (b : Ref sig .tc) (hb : b ≠ main_v41) :
    W2 m c (Proc.devRef .tc b) = W1 m c (Proc.devRef .tc b) := by
  unfold W2; exact Function.update_of_ne (StableHlo.devRef_ne_of_ne hb) _ _

end Cert.KernelIdeal.Hand

end
-- ==== Proof.KernelIdeal.Run.lean ====
/-
  The run of the whole program on a core: 48 host operations, the one kernel region, 10 host operations, as three
  segments over the thread state "every unscoped buffer at the boundary's contents, the generator register at some
  state, nothing owed". The kernel's pipeline reads each of the two feature parts through TWO windows (the row block
  of a point and the whole part), so its seven windows sit on five buffers: at the region's entry the full share of
  each shared buffer is halved between its two windows, at the exit the halves are joined again. Every final state then
  has every unscoped buffer at the last contents of the fold, and the four arguments at what the launch memory held.
-/
import proofs.«419777_j60876866453606_3_alg».proof.Proof.KernelIdeal.Body
import proofs.«419777_j60876866453606_3_alg».proof.Proof.KernelIdeal.Vals
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Frame
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- No operation of a stretch writes the reference at hand: each operation's one written buffer is another reference. -/
local macro "not_written" : tactic => `(tactic| (
  refine List.forall_iff_forall_mem.mp ?_
  simp only [hostOps0, hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

namespace Run

/-! ## The windows' arrays among the core's unscoped buffers

The pipeline's seven windows sit on FIVE buffers: windows 0 and 1 read the first feature part, windows 2 and 3 the
second, windows 4 and 5 the class column and the class row, window 6 writes the results. The launch hands over each of
the five whole at the full share; the pipeline holds window 0's and window 2's array at the left half of the full share
and window 1's and window 3's at the right half, the other three at the full share. The two forms are interchangeable
whenever the windows on one buffer hold the same contents. -/

section Arrays

/-- Two resources each held as two parts, beside three more: parted or whole, it is the same holding. -/
theorem halves_iff {M : Type} [URA M] {P Pl Pr Q Ql Qr A B C : sProp M}
    (hP : P ⊣⊢ iprop(Pl ∗ Pr)) (hQ : Q ⊣⊢ iprop(Ql ∗ Qr)) :
    iprop(Pl ∗ Pr ∗ Ql ∗ Qr ∗ A ∗ B ∗ C) ⊣⊢ iprop(P ∗ Q ∗ A ∗ B ∗ C) := by
  refine ⟨?_, ?_⟩
  · iintro ⟨H0, H1, H2, H3, H4, H5, H6⟩
    isplitl [H0 H1]
    · iapply hP.2; isplitl [H0] <;> iassumption
    isplitl [H2 H3]
    · iapply hQ.2; isplitl [H2] <;> iassumption
    isplitl [H4]; · iexact H4
    isplitl [H5] <;> iassumption
  · iintro ⟨Ha, Hb, H4, H5, H6⟩
    ihave Ha := hP.1 $$ Ha
    icases Ha with ⟨H0, H1⟩
    ihave Hb := hQ.1 $$ Hb
    icases Hb with ⟨H2, H3⟩
    isplitl [H0]; · iexact H0
    isplitl [H1]; · iexact H1
    isplitl [H2]; · iexact H2
    isplitl [H3]; · iexact H3
    isplitl [H4]; · iexact H4
    isplitl [H5] <;> iassumption

variable (Vd : (c : Dev nD) → (b : Ref sig .tc) → Buf (Elt F) ((c : Thread nD τ).loc b))

/-- The five buffers behind the seven windows, -/
theorem arrRefs0 : Finset.univ.image (Pipeline.arrRef spec0)
    = ({main_v37, main_v40, main_v21, main_v22, main_v41} : Finset (Ref sig .tc)) := by decide
/-- pairwise distinct. -/
theorem v37_nmem : main_v37 ∉ ({main_v40, main_v21, main_v22, main_v41} : Finset (Ref sig .tc)) := by decide
theorem v40_nmem : main_v40 ∉ ({main_v21, main_v22, main_v41} : Finset (Ref sig .tc)) := by decide
theorem v21_nmem : main_v21 ∉ ({main_v22, main_v41} : Finset (Ref sig .tc)) := by decide
theorem v22_nmem : main_v22 ∉ ({main_v41} : Finset (Ref sig .tc)) := by decide

/-- What the launch hands the pipeline, buffer by buffer. -/
theorem arrBufs0_eq (c : Dev nD) (V : (b : Ref sig .tc) → Buf (Elt F) ((c : Thread nD τ).loc b)) :
    (Pipeline.arrBufs spec0 c V : sProp 𝕄)
      = iprop((((c : Thread nD τ).loc main_v37) ↦{fullShare} V main_v37)
          ∗ (((c : Thread nD τ).loc main_v40) ↦{fullShare} V main_v40)
          ∗ (((c : Thread nD τ).loc main_v21) ↦{fullShare} V main_v21)
          ∗ (((c : Thread nD τ).loc main_v22) ↦{fullShare} V main_v22)
          ∗ (((c : Thread nD τ).loc main_v41) ↦{fullShare} V main_v41)) := by
  unfold Pipeline.arrBufs
  rw [arrRefs0, bigSep_insert v37_nmem, bigSep_insert v40_nmem, bigSep_insert v21_nmem, bigSep_insert v22_nmem, bigSep_singleton]
  rfl

/-- Every window's array is a whole buffer: the pipeline's holding of its arrays, window by window, each at its share. -/
theorem arrays0_eq (c : Dev nD) (Fw : (w : Fin cfg0.W) → Buf (Elt F) ((cfg0.win w).arr.view.loc (c : Thread nD τ))) :
    ((dat0 Vd c).arrays Fw : sProp 𝕄)
      = bigSep Finset.univ fun w : Fin cfg0.W =>
          (((c : Thread nD τ).loc (Pipeline.arrRef spec0 w)) ↦{(dat0 Vd c).share w} Fw w : sProp 𝕄) := by
  unfold Pipeline.Dat.arrays
  exact bigSep_congr fun w _ => by rw [(arr_whole0 w).set_eq_univ]

/-- The same with the windows, their buffers and their shares spelt out. -/
theorem arrays0_explicit (c : Dev nD) (Fw : (w : Fin cfg0.W) → Buf (Elt F) ((cfg0.win w).arr.view.loc (c : Thread nD τ))) :
    ((dat0 Vd c).arrays Fw : sProp 𝕄)
      = iprop((((c : Thread nD τ).loc main_v37) ↦{fullShare.left} Fw 0)
          ∗ (((c : Thread nD τ).loc main_v37) ↦{fullShare.right} Fw 1)
          ∗ (((c : Thread nD τ).loc main_v40) ↦{fullShare.left} Fw 2)
          ∗ (((c : Thread nD τ).loc main_v40) ↦{fullShare.right} Fw 3)
          ∗ (((c : Thread nD τ).loc main_v21) ↦{fullShare} Fw 4)
          ∗ (((c : Thread nD τ).loc main_v22) ↦{fullShare} Fw 5)
          ∗ (((c : Thread nD τ).loc main_v41) ↦{fullShare} Fw 6)) := by
  rw [arrays0_eq, bigSep_W0]
  rfl

/-- The pipeline's holding of its arrays at contents `Fw` is the five buffers whole at the full share at contents `V`,
    when each window's contents are its buffer's under `V`: the two halves of a shared buffer make its full share. -/
theorem arrays0_iff (c : Dev nD)
    (Fw : (w : Fin cfg0.W) → Buf (Elt F) ((cfg0.win w).arr.view.loc (c : Thread nD τ)))
    (V : (b : Ref sig .tc) → Buf (Elt F) ((c : Thread nD τ).loc b))
    (hF : ∀ w, Fw w = V (Pipeline.arrRef spec0 w)) :
    ((dat0 Vd c).arrays Fw : sProp 𝕄) ⊣⊢ Pipeline.arrBufs spec0 c V := by
  rw [arrays0_explicit, arrBufs0_eq, hF 0, hF 1, hF 2, hF 3, hF 4, hF 5, hF 6]
  exact halves_iff (pointsTo_share (PosShare.mem_left_op_right fullShare)) (pointsTo_share (PosShare.mem_left_op_right fullShare))

/-- ENTRY: every unscoped buffer at contents `W` is the pipeline's arrays at the windows' contents under `W` beside the
    unscoped buffers that are no window's array. -/
theorem entry_gen (c : Dev nD) (W : Valuation τ sig (Elt F))
    (Fw : (w : Fin cfg0.W) → Buf (Elt F) ((cfg0.win w).arr.view.loc (c : Thread nD τ)))
    (hF : ∀ w, Fw w = W (Proc.devRef .tc (Pipeline.arrRef spec0 w))) :
    (StableHlo.held (c : Thread nD τ) (Pipeline.ucRefs τ sig) W : sProp 𝕄)
      ⊢ iprop((dat0 Vd c).arrays Fw
          ∗ Pipeline.unscopedRest (Ix := Unit) (Name := ℕ) (U := UR sig nD τ) (Lvl := ℕ) spec0 c (fun b => W b)) := by
  rw [← Pipeline.unscopedBufs_held c W, Pipeline.unscopedBufs_split₀ cfgs 0 winFacts₀0.arr_unscoped c]
  exact sep_mono (arrays0_iff Vd c Fw (fun b => W b) hF).2 .rfl

/-- EXIT: the pipeline's arrays at contents `Fw` beside the bypassed buffers at `W` are every unscoped buffer at any
    contents `W'` that has the arrays' buffers at `Fw` and agrees with `W` off them. -/
theorem exit_gen (c : Dev nD) (W W' : Valuation τ sig (Elt F))
    (Fw : (w : Fin cfg0.W) → Buf (Elt F) ((cfg0.win w).arr.view.loc (c : Thread nD τ)))
    (hF : ∀ w, Fw w = W' (Proc.devRef .tc (Pipeline.arrRef spec0 w)))
    (hrest : ∀ b : Ref sig .tc, b ∉ Finset.univ.image (Pipeline.arrRef spec0) → W' (Proc.devRef .tc b) = W (Proc.devRef .tc b)) :
    iprop((dat0 Vd c).arrays Fw
        ∗ Pipeline.unscopedRest (Ix := Unit) (Name := ℕ) (U := UR sig nD τ) (Lvl := ℕ) spec0 c (fun b => W b))
      ⊢ (StableHlo.held (c : Thread nD τ) (Pipeline.ucRefs τ sig) W' : sProp 𝕄) := by
  rw [← Pipeline.unscopedBufs_held c W', Pipeline.unscopedBufs_split₀ cfgs 0 winFacts₀0.arr_unscoped c]
  refine sep_mono (arrays0_iff Vd c Fw (fun b => W' b) hF).1 (Entails.of_eq ?_)
  unfold Pipeline.unscopedRest
  exact bigSep_congr fun b hb => by beta_reduce; rw [hrest b (Finset.mem_sdiff.mp hb).2]

end Arrays

variable (m : (ℓ : Loc nD τ sig) → Buf (Elt F) ℓ) (ρ : Dev nD → PrngReg)

/-! ## The region's exit contents -/

/-- Every window but the last is an input, on another buffer than the result array. -/
theorem inputs0 : ∀ w : Fin cfg0.W, w ≠ 6 → (cfg0.win w).isOut = false ∧ Pipeline.arrRef spec0 w ≠ main_v41 := by decide

/-- At the exit each window's array holds: an input what it held at entry, the result array what the 32 write-backs left. -/
theorem exit_contents (c : Dev nD) (w : Fin cfg0.W) :
    (dat0 (V1 m) c).arrAt w cfg0.N = W2 m c (Proc.devRef .tc (Pipeline.arrRef spec0 w)) := by
  by_cases hw : w = 6
  · subst hw; exact (W2_v41 m c).symm
  · obtain ⟨hin, hne⟩ := inputs0 w hw
    exact ((dat0 (V1 m) c).arrAt_in w hin _).trans (W2_of_ne m c _ hne).symm

/-- Off the windows' arrays the exit contents are the entry contents: only the result array changed. -/
theorem exit_rest (c : Dev nD) (b : Ref sig .tc) (hb : b ∉ Finset.univ.image (Pipeline.arrRef spec0)) :
    W2 m c (Proc.devRef .tc b) = W1 m c (Proc.devRef .tc b) :=
  W2_of_ne m c b fun e => hb (e ▸ Finset.mem_image.mpr ⟨6, Finset.mem_univ _, rfl⟩)

/-! ## The arguments end as launched

No host operation writes an argument, and the region writes only its result array: the fold of contents at an
argument's buffer walks back to the launch memory. -/

/-- A buffer that neither stretch of host operations writes and that is not the region's result holds at the end what
    the launch memory held. -/
theorem W3_of_untouched (c : Dev nD) (b : Ref sig .tc)
    (h0 : ∀ op ∈ (hostOps0 : List (HloOp τ sig (Elt F))), Proc.devRef .tc b ∉ op.writes)
    (h1 : ∀ op ∈ (hostOps1 : List (HloOp τ sig (Elt F))), Proc.devRef .tc b ∉ op.writes)
    (hb : b ≠ main_v41) : W3 m c (Proc.devRef .tc b) = m ((c : Thread nD τ).loc b) :=
  calc W3 m c (Proc.devRef .tc b)
    _ = W2 m c (Proc.devRef .tc b) := StableHlo.after_of_forall_not_mem _ _ h1
    _ = W1 m c (Proc.devRef .tc b) := W2_of_ne m c b hb
    _ = W0 m c (Proc.devRef .tc b) := StableHlo.after_of_forall_not_mem _ _ h0
    _ = m ((c : Thread nD τ).loc b) := rfl

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
/-- No core owes another anything: no level is assigned. -/
abbrev L : GSem nD τ sig → Finset Unit := fun _ => ∅
abbrev lv : GSem nD τ sig → Unit → ℕ := fun _ _ => 0
/-- The core's generator register at some state, -/
abbrev Rg (c : Dev nD) : sProp 𝕄 := iprop(∃ r, prngReg c r)
/-- and the core owing nothing, whatever pairs its waits have recorded. -/
abbrev Ro (c : Dev nD) : sProp 𝕄 := iprop(∃ W, owes (c : Thread nD τ) (0 : CellTallies nD τ sig Unit) W)
/-- What rides beside the buffers through every segment: both. -/
abbrev R (c : Dev nD) : sProp 𝕄 := iprop(Rg c ∗ Ro c)

/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The last thread state without the `owes`: every unscoped buffer at the last contents, the generator register at
    some state. -/
abbrev Tₙ (c : Dev nD) : sProp 𝕄 := iprop(StableHlo.held (c : Thread nD τ) (Pipeline.ucRefs τ sig) (W3 m c) ∗ Rg c)

/-- The core owing nothing is what the pipeline's loop takes as its `owes` at any point: the proof data owe nothing
    and bound the recorded pairs by everything. -/
theorem owes_in (c : Dev nD) (t : Fin (cfg0.N + 1)) : Ro c ⊢ ((dat0 (V1 m) c).owesAt () t : sProp 𝕄) := by
  iintro ⟨%W, HO⟩
  iexists W
  isplitr
  · ipureintro; exact fun x _ => Or.inl (Set.mem_univ x)
  iexact HO
/-- And back. -/
theorem owes_out (c : Dev nD) (t : Fin (cfg0.N + 1)) : ((dat0 (V1 m) c).owesAt () t : sProp 𝕄) ⊢ Ro c := by
  iintro ⟨%W, -, HO⟩
  iexists W
  iexact HO

/-! ## The kernel region as a segment -/

set_option backward.isDefEq.respectTransparency.types false in
/-- The region over the thread state: entered from every unscoped buffer at `W1`, left at `W2`. Its arrays are split
    out of the unscoped buffers, the two shared ones halved between their windows (`entry_gen`), and put back at the
    exit contents (`exit_gen`); the generator register goes into the invariant and comes out; nothing is owed; the
    kernel has no semaphore of its own and the pipeline no prefetched table. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := Rg c
  Y c := Rg c
  Z c := Pipeline.unscopedRest (Ix := Unit) (Name := ℕ) (U := UR sig nD τ) (Lvl := ℕ) spec0 c (V1 m c)
  hentry c := by
    have hsplit := entry_gen (V1 m) c (W1 m c) ((dat0 (V1 m) c).arrAt · 0) fun _ => rfl
    have hnone : (BI.emp : sProp 𝕄) ⊢ Pipeline.prefHeld (pcfgs (F := F) 0).pre c (fun _ => fullShare) (adm (F := F) 0).1 := .rfl
    iintro ⟨⟨Hheld, Hg, Ho⟩, -, -⟩
    ihave Hsp := hsplit $$ Hheld
    icases Hsp with ⟨Harr, Hrest⟩
    imodintro
    isplitl [Harr]; · iexact Harr
    isplitr
    · iapply hnone; iempintro
    isplitl [Ho]
    · iapply (owes_in m c 0); iexact Ho
    isplitl [Hg] <;> iassumption
  hin c := by
    show iprop(Rg c ∗ _ ∗ Pipeline.scopedRest spec0 c) ⊢ Pipeline.ΦA spec0 c
    unfold Pipeline.ΦA
    iintro ⟨Hg, -, Hs⟩
    isplitl [Hs] <;> iassumption
  hout c := by
    show Pipeline.ΦA spec0 c ⊢ iprop(Rg c ∗ _ ∗ Pipeline.scopedRest spec0 c)
    rw [Pipeline.ownSems0_none]
    unfold Pipeline.ΦA
    iintro ⟨Hs, Hg⟩
    isplitl [Hg]; · iexact Hg
    isplitr; · iempintro
    iexact Hs
  hexit c := by
    have hjoin := exit_gen (V1 m) c (W1 m c) (W2 m c) ((dat0 (V1 m) c).arrAt · cfg0.N) (exit_contents m c) (exit_rest m c)
    iintro ⟨Harr, Ho, Hg, Hrest⟩
    imodintro
    isplitl [Harr Hrest]
    · iapply hjoin
      isplitl [Harr]; · iexact Harr
      iexact Hrest
    isplitl [Hg]; · iexact Hg
    iapply (owes_out m c (Fin.last _)); iexact Ho

/-! ## @main as segments, and the launch -/

/-- @main's three segments in order: the host stretch before the kernel from the launch contents, the kernel region,
    the host stretch after it from the region's exit contents. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
/-- @main IS the run of the segments. -/
theorem main_run (c : Dev nD) : main (F := F) c = Pipeline.Seg.run (segs m) := (main_chain c).trans (by chain_rfl)

/-- The launch element is the pipeline library's, held whole; no core gets a ghost resource of its own. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const, ownU_emb₁]
  iintro Hu
  imodintro
  isplitl [Hu]; · iexact Hu
  iempintro

end Run

open Run

variable (m : (ℓ : Loc nD τ sig) → Buf (Elt F) ℓ) (ρ : Dev nD → PrngReg)

/-! ## The four arguments at the end, the references the thread state holds, and the run -/

theorem W3_main_arg0 (c : Dev nD) : W3 m c (Proc.devRef .tc main_arg0) = m ((c : Thread nD τ).loc main_arg0) :=
  W3_of_untouched m c main_arg0 (by not_written) (by not_written) (by decide)
theorem W3_main_arg1 (c : Dev nD) : W3 m c (Proc.devRef .tc main_arg1) = m ((c : Thread nD τ).loc main_arg1) :=
  W3_of_untouched m c main_arg1 (by not_written) (by not_written) (by decide)
theorem W3_main_arg2 (c : Dev nD) : W3 m c (Proc.devRef .tc main_arg2) = m ((c : Thread nD τ).loc main_arg2) :=
  W3_of_untouched m c main_arg2 (by not_written) (by not_written) (by decide)
theorem W3_main_arg3 (c : Dev nD) : W3 m c (Proc.devRef .tc main_arg3) = m ((c : Thread nD τ).loc main_arg3) :=
  W3_of_untouched m c main_arg3 (by not_written) (by not_written) (by decide)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main on the TensorCore terminates,
    nothing faulting, and every final state has every unscoped buffer at the last contents of the fold, `W3`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_elem)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hheld, -, Ho, -, Hg, -⟩, -⟩
      imodintro
      isplitl [Hheld]; · iexact Hheld
      isplitl [Hg]
      · iexists _; iexact Hg
      iexists ∅; iexact Ho)
    (QY := fun c s => ∀ b ∈ Pipeline.ucRefs τ sig, s.mem (((c : Thread nD τ)).1, b) = W3 m c b)
    (hfin := fun c s' => by
      iintro ⟨⟨Hheld, -⟩, HSI⟩
      unfold StableHlo.held
      imodintro
      iapply (pointsTo_read_all (Pipeline.ucRefs τ sig) (fun b => (((c : Thread nD τ)).1, b)) (W3 m c) s')
      isplitl [Hheld] <;> iassumption)
    (hQ := fun s h => h)

end Cert.KernelIdeal.Hand

end
-- ==== Proof.KernelIdeal.Value.lean ====
/-
  The result array of the tiled pixel-contrast loss kernel, row by row.

  The grid has 32 points; point t computes rows 256 t … 256 t + 255 of the result from the row blocks of the two
  feature parts f, g and of the class column, and from the whole feature parts and the whole class row. Two halves.

  THE PAYLOAD AT A ROW. For row r of point t, which is row R = 256 t + r of the arrays:
    logits       L R j = ((Σ_k f R k · f j k + Σ_k f R k · g j k) + Σ_k g R k · f j k) · κ     (three products, contracted on the features)
    maximum      M R   = the fold of max from -inf over the 8192 columns
    shifted      s R j = L R j - M R,      e R j = exp (s R j)
    other-class  neg R = Σ_j e R j - Σ_j [class R = class j] e R j
    log-prob     lp R j = s R j - log (e R j + neg R)
    stored       Σ_j [class R = class j and R ≠ j] lp R j
  each read off the printed operations at an index: a product by the sum over the one contracted axis, a lane reduction
  by the sum (or fold) over the lanes, a keepdims column by its cast and broadcast, the class test and the diagonal test
  as words (256 t + r and j are below 2^32, so they are equal as 32-bit words exactly when they are equal).

  FROM BLOCKS TO THE ARRAY. Window w's block at point t is its array read at block index × block size + the coordinate
  inside the block; the index maps are decided once over the 32 points. What point t writes back is therefore block t
  of ONE function of the arrays (row i ↦ the specification's sum for row i), the 32 blocks cover the 8192 rows (row i
  lies in block i / 256), and so the array ends holding that function.
-/
import proofs.«419777_j60876866453606_3_alg».proof.Proof.KernelIdeal.Data
import proofs.«419777_j60876866453606_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.KernelIdeal Cert.KernelIdeal.Gen
open Cert.Contrast
open Idealize.ShloMosaic.ValueIdx

/-! The lemmas below sit in a namespace of their own; the module's result, the array read at a row, closes the file. -/
namespace Value

/-! ## The payload at a row: the logits -/

/-- The scale the tiled program multiplies the Gram matrices by, as it names it. -/
abbrev κv : EReal := Named.named (F := Ideal) κ "inv_temperature" (φ := .f32) 0x41200000#32

theorem lhs_dot_0 (i : S256x8192.Idx) (q : dot_S256x256_S8192x256_S256x8192_1_1_0_0_n_n.contr.Idx) :
    (dot_S256x256_S8192x256_S256x8192_1_1_0_0_n_n.lhsIdx i q 0).val = (i 0).val := by
  unfold DotDims.lhsIdx
  rw [dif_neg (show ¬(0 : Fin S256x256.rank) ∈ dot_S256x256_S8192x256_S256x8192_1_1_0_0_n_n.lhsBatch by decide), dif_pos (show (0 : Fin S256x256.rank) ∈ dot_S256x256_S8192x256_S256x8192_1_1_0_0_n_n.lhsNonContracting by decide)]
  rfl
theorem lhs_dot_1 (i : S256x8192.Idx) (q : dot_S256x256_S8192x256_S256x8192_1_1_0_0_n_n.contr.Idx) :
    (dot_S256x256_S8192x256_S256x8192_1_1_0_0_n_n.lhsIdx i q 1).val = (q ⟨0, by decide⟩).val :=
  dot_S256x256_S8192x256_S256x8192_1_1_0_0_n_n.lhsIdx_val_of_single rfl i q
theorem rhs_dot_0 (i : S256x8192.Idx) (q : dot_S256x256_S8192x256_S256x8192_1_1_0_0_n_n.contr.Idx) :
    (dot_S256x256_S8192x256_S256x8192_1_1_0_0_n_n.rhsIdx i q 0).val = (i 1).val := by
  unfold DotDims.rhsIdx
  rw [dif_neg (show ¬(0 : Fin S8192x256.rank) ∈ dot_S256x256_S8192x256_S256x8192_1_1_0_0_n_n.rhsBatch by decide), dif_pos (show (0 : Fin S8192x256.rank) ∈ dot_S256x256_S8192x256_S256x8192_1_1_0_0_n_n.rhsNonContracting by decide)]
  rfl
theorem rhs_dot_1 (i : S256x8192.Idx) (q : dot_S256x256_S8192x256_S256x8192_1_1_0_0_n_n.contr.Idx) :
    (dot_S256x256_S8192x256_S256x8192_1_1_0_0_n_n.rhsIdx i q 1).val = (q ⟨0, by decide⟩).val :=
  dot_S256x256_S8192x256_S256x8192_1_1_0_0_n_n.rhsIdx_val_of_single rfl i q

/-- A product of a row block with the transposed whole array, into the zero splat, at (r, j): the sum over the 256
    features of the block's row r times the array's row j. -/
theorem matmul_rows_apply (l : FVec Ideal S256x256 .bf16) (w : FVec Ideal S8192x256 .bf16) (r : Fin 256) (j : Fin 8192) :
    matmul dot_S256x256_S8192x256_S256x8192_1_1_0_0_n_n none l w (constant (F := Ideal) S256x8192 .f32 0x00000000#32) (ix2 r j)
      = ∑ k : Fin 256, l (ix2 r k) * w (ix2 j k) := by
  simp only [matmul]
  rw [Ideal.matmul_constant_zero_apply, ← Equiv.sum_comp (contrEquiv1 dot_S256x256_S8192x256_S256x8192_1_1_0_0_n_n 256 rfl rfl).symm]
  refine Finset.sum_congr rfl fun k _ => ?_
  have hk := contrEquiv1_symm_val dot_S256x256_S8192x256_S256x8192_1_1_0_0_n_n 256 rfl rfl k
  have el : dot_S256x256_S8192x256_S256x8192_1_1_0_0_n_n.lhsIdx (ix2 r j) ((contrEquiv1 dot_S256x256_S8192x256_S256x8192_1_1_0_0_n_n 256 rfl rfl).symm k) = ix2 r k := funext fun a => Fin.ext (by
    match a with
    | ⟨0, _⟩ => exact lhs_dot_0 _ _
    | ⟨1, _⟩ => exact (lhs_dot_1 _ _).trans hk)
  have er : dot_S256x256_S8192x256_S256x8192_1_1_0_0_n_n.rhsIdx (ix2 r j) ((contrEquiv1 dot_S256x256_S8192x256_S256x8192_1_1_0_0_n_n 256 rfl rfl).symm k) = ix2 j k := funext fun a => Fin.ext (by
    match a with
    | ⟨0, _⟩ => exact rhs_dot_0 _ _
    | ⟨1, _⟩ => exact (rhs_dot_1 _ _).trans hk)
  rw [el, er]

/-- The block of logits: the three products added and scaled. -/
def lgt (v1 v3 : FVec Ideal S256x256 .bf16) (v5 v7 : FVec Ideal S8192x256 .bf16) : FVec Ideal S256x8192 .f32 :=
  mulf (addf (addf (matmul dot_S256x256_S8192x256_S256x8192_1_1_0_0_n_n none v1 v5 (constant (F := Ideal) S256x8192 .f32 0x00000000#32))
      (matmul dot_S256x256_S8192x256_S256x8192_1_1_0_0_n_n none v1 v7 (constant (F := Ideal) S256x8192 .f32 0x00000000#32)))
      (matmul dot_S256x256_S8192x256_S256x8192_1_1_0_0_n_n none v3 v5 (constant (F := Ideal) S256x8192 .f32 0x00000000#32)))
    (broadcast S256x8192 κv)

/-- At (r, j) the block of logits is the specification's, at the array row R the block's row r is. -/
theorem lgt_apply (v1 v3 : FVec Ideal S256x256 .bf16) (v5 v7 : FVec Ideal S8192x256 .bf16)
    (f g : Fin 8192 → Fin 256 → EReal) (R : Fin 8192) (r : Fin 256)
    (h1 : ∀ k, v1 (ix2 r k) = f R k) (h3 : ∀ k, v3 (ix2 r k) = g R k)
    (h5 : ∀ j k, v5 (ix2 j k) = f j k) (h7 : ∀ j k, v7 (ix2 j k) = g j k) (j : Fin 8192) :
    lgt v1 v3 v5 v7 (ix2 r j) = logitsK κv f g R j := by
  unfold lgt logitsK gram
  rw [mulf_apply, addf_apply, addf_apply, matmul_rows_apply, matmul_rows_apply, matmul_rows_apply, broadcast_apply]
  simp only [h1, h3, h5, h7]

/-! ## Keepdims columns, and a reduced row's indices -/

/-- The index over row r of the reduced shape with column j inserted is (r, j). -/
theorem lift_row (r : Fin 256) (j : Fin 8192) : reduces_S256x8192_S256.lift (ix1 r) j = ix2 r j := by
  funext a; apply Fin.ext
  match a with
  | ⟨0, _⟩ => rfl
  | ⟨1, _⟩ => rfl

/-- A vector of 256 cast to a column reads, at (r, 0), the vector at r. -/
theorem colCast_apply {α : Type} (v : S256.Idx → α) (r : Fin 256) :
    shapeCast S256x1 v shapeCasts_S256_S256x1 (ix2 r (0 : Fin 1)) = v (ix1 r) :=
  shapeCast_apply v shapeCasts_S256_S256x1 (ix2 r (0 : Fin 1)) (ix1 r) (by
    rw [Shape.rowMajor_val_one, Shape.rowMajor_val_two]
    show r.val = r.val * 1 + 0
    omega)

/-- A column broadcast along the 8192 lanes reads, at (r, j), the column at (r, 0). -/
theorem colBcast_apply {α : Type} (w : S256x1.Idx → α) (r : Fin 256) (j : Fin 8192) :
    broadcastTo S256x8192 w broadcasts_S256x1_S256x8192 (ix2 r j) = w (ix2 r (0 : Fin 1)) :=
  broadcastTo_apply w broadcasts_S256x1_S256x8192 (ix2 r j) (ix2 r (0 : Fin 1)) fun a => by
    match a with
    | ⟨0, _⟩ => rfl
    | ⟨1, _⟩ => rfl

/-! ## The row maximum, the shifted logits, their exponentials -/

/-- The maximum of each row of a block. -/
def rmax (L : FVec Ideal S256x8192 .f32) : FVec Ideal S256 .f32 :=
  multiReduction (F := Ideal) .maximumf [1] S256 L 0xFF800000#32 reduces_S256x8192_S256 (.inl rfl) rfl

/-- A block less its rows' maxima. -/
def shf (L : FVec Ideal S256x8192 .f32) : FVec Ideal S256x8192 .f32 :=
  subf L (broadcastTo S256x8192 (shapeCast S256x1 (rmax L) shapeCasts_S256_S256x1) broadcasts_S256x1_S256x8192)

/-- Its exponentials. -/
def ex (L : FVec Ideal S256x8192 .f32) : FVec Ideal S256x8192 .f32 := exp (shf L)

section Row
variable (L : FVec Ideal S256x8192 .f32) (Lf : Fin 8192 → Fin 8192 → EReal) (R : Fin 8192) (r : Fin 256)
  (hL : ∀ j, L (ix2 r j) = Lf R j)
include hL

theorem rmax_apply : rmax L (ix1 r) = rowMax Lf R := by
  unfold rmax rowMax
  refine (Ideal.multiReduction_maximumf_single L 0xFF800000#32 reduces_S256x8192_S256 (.inl rfl) rfl (ix1 r)).trans ?_
  show (Finset.univ : Finset (Fin 8192)).fold max negInf (fun j => L (reduces_S256x8192_S256.lift (ix1 r) j)) = _
  exact congrArg (fun F : Fin 8192 → EReal => (Finset.univ : Finset (Fin 8192)).fold max negInf F)
    (funext fun j : Fin 8192 => (congrArg L (lift_row r j)).trans (hL j))

theorem shf_apply (j : Fin 8192) : shf L (ix2 r j) = shifted Lf R j := by
  unfold shf shifted
  rw [subf_apply, colBcast_apply, colCast_apply, rmax_apply L Lf R r hL, hL]

theorem ex_apply (j : Fin 8192) : ex L (ix2 r j) = expo Lf R j := by
  unfold ex expo
  show Ideal.exp (shf L (ix2 r j)) = _
  rw [shf_apply L Lf R r hL]

end Row

/-! ## Sums along a row; the same-class mask; the sum over the other classes; the log-probabilities -/

/-- A sum over the lanes of a block, at row r: the sum over the 8192 columns. -/
theorem rowSum_apply (X : FVec Ideal S256x8192 .f32) (r : Fin 256) :
    multiReduction (F := Ideal) .add [1] S256 X 0x00000000#32 reduces_S256x8192_S256 (.inl rfl) rfl (ix1 r)
      = ∑ j : Fin 8192, X (ix2 r j) := by
  refine (Ideal.multiReduction_add_single X 0x00000000#32 reduces_S256x8192_S256 (.inl rfl) rfl (ix1 r)).trans ?_
  show (∑ j : Fin 8192, X (reduces_S256x8192_S256.lift (ix1 r) j)) = _
  exact Finset.sum_congr rfl fun j _ => congrArg X (lift_row r j)

/-- An equality test of two words is the bit 1 exactly when they are equal. -/
theorem cmpi_eq_one_iff {w : Nat} (x y : BitVec w) : IntOp.cmpi .eq x y = 1#1 ↔ x = y := by
  show BitVec.ofBool (x == y) = 1#1 ↔ x = y
  by_cases h : x = y
  · subst h
    rw [beq_self_eq_true]
    exact ⟨fun _ => rfl, fun _ => rfl⟩
  · rw [beq_eq_false_iff_ne.mpr h]
    exact ⟨fun h' => absurd h' (by decide), fun h' => absurd h' h⟩

/-- The mask at (r, j) compares the class column at row r with the class row at column j. -/
theorem mask_apply (v20 : Vec Ideal S256x1 .i32) (v22 : Vec Ideal S1x8192 .i32) (r : Fin 256) (j : Fin 8192) :
    k0_pay2 (F := Ideal) v20 v22 (ix2 r j) = IntOp.cmpi .eq (v20 (ix2 r (0 : Fin 1))) (v22 (ix2 (0 : Fin 1) j)) := by
  unfold k0_pay2
  show IntOp.cmpi .eq (broadcastTo S256x8192 (shapeCast S256x1 v20 shapeCasts_S256x1_S256x1) broadcasts_S256x1_S256x8192 (ix2 r j))
      (broadcastTo S256x8192 (shapeCast S1x8192 v22 shapeCasts_S1x8192_S1x8192) broadcasts_S1x8192_S256x8192 (ix2 r j)) = _
  rw [colBcast_apply, broadcastTo_1b_ab_apply, shapeCast_self, shapeCast_self]

/-- Per row: the sum of the exponentials less the sum of those of the same class, as a column. -/
def ngt (L : FVec Ideal S256x8192 .f32) (m : IVec S256x8192 1) : FVec Ideal S256x1 .f32 :=
  subf (shapeCast S256x1 (multiReduction (F := Ideal) .add [1] S256 (ex L) 0x00000000#32 reduces_S256x8192_S256 (.inl rfl) rfl) shapeCasts_S256_S256x1)
    (shapeCast S256x1 (multiReduction (F := Ideal) .add [1] S256
      (select m (ex L) (broadcast S256x8192 (Scalar.ofBits (F := Ideal) .f32 0x00000000#32))) 0x00000000#32 reduces_S256x8192_S256 (.inl rfl) rfl) shapeCasts_S256_S256x1)

/-- The log-probabilities of a block. -/
def lpr (L : FVec Ideal S256x8192 .f32) (m : IVec S256x8192 1) : FVec Ideal S256x8192 .f32 :=
  subf (shf L) (log (addf (ex L) (broadcastTo S256x8192 (ngt L m) broadcasts_S256x1_S256x8192)))

section Row2
variable (L : FVec Ideal S256x8192 .f32) (Lf : Fin 8192 → Fin 8192 → EReal) (R : Fin 8192) (r : Fin 256)
  (hL : ∀ j, L (ix2 r j) = Lf R j)
  (m : IVec S256x8192 1) (lab : Fin 8192 → BitVec 32) (hm : ∀ j, m (ix2 r j) = 1#1 ↔ lab R = lab j)
include hL hm

theorem ngt_apply : ngt L m (ix2 r (0 : Fin 1)) = negK Lf lab R := by
  unfold ngt negK
  rw [subf_apply, colCast_apply, colCast_apply, rowSum_apply, rowSum_apply]
  congr 1
  · exact Finset.sum_congr rfl fun j _ => ex_apply L Lf R r hL j
  · refine Finset.sum_congr rfl fun j _ => ?_
    rw [select_apply, broadcast_apply, ex_apply L Lf R r hL j]
    show (if m (ix2 r j) = 1#1 then expo Lf R j else Ideal.ofBits .f32 0x00000000#32) = _
    rw [Ideal.ofBits_zero_f32]
    exact if_congr (hm j) rfl rfl

theorem lpr_apply (j : Fin 8192) : lpr L m (ix2 r j) = logProb Lf (negK Lf lab) R j := by
  unfold lpr logProb
  show shf L (ix2 r j) - Ideal.log (ex L (ix2 r j) + broadcastTo S256x8192 (ngt L m) broadcasts_S256x1_S256x8192 (ix2 r j)) = _
  rw [colBcast_apply, shf_apply L Lf R r hL, ex_apply L Lf R r hL, ngt_apply L Lf R r hL m lab hm]

end Row2

/-- The payload of the log-probabilities is those stages of the logits of its four feature blocks. -/
theorem k0_pay3_eq (v0 v2 : Vec Ideal S256x256 .bf16) (v4 v6 : Vec Ideal S8192x256 .bf16) (v20 : Vec Ideal S256x1 .i32) (v22 : Vec Ideal S1x8192 .i32) :
    k0_pay3 (F := Ideal) v0 v2 v4 v6 v20 v22 = lpr (lgt v0 v2 v4 v6) (k0_pay2 (F := Ideal) v20 v22) := by
  have e : k0_pay3 (F := Ideal) v0 v2 v4 v6 v20 v22
      = lpr (lgt (shapeCast S256x256 v0 shapeCasts_S256x256_S256x256) (shapeCast S256x256 v2 shapeCasts_S256x256_S256x256)
          (shapeCast S8192x256 v4 shapeCasts_S8192x256_S8192x256) (shapeCast S8192x256 v6 shapeCasts_S8192x256_S8192x256))
        (k0_pay2 (F := Ideal) v20 v22) := rfl
  rw [e, shapeCast_self, shapeCast_self, shapeCast_self, shapeCast_self]

/-! ## The selected sum -/

/-- The words of the diagonal test: with point t below 32, row r below 256 and column j below 8192, the bit b masked
    by "row 256 t + r is not column j" is set exactly when b is and the two numbers differ. -/
theorem offDiag_word (t r j : ℕ) (ht : t < 32) (hr : r < 256) (hj : j < 8192) (b : BitVec 1) :
    IntOp.andi b (IntOp.xori (IntOp.cmpi .eq (IntOp.addi (Scalar.muli (BitVec.ofNat 32 t) 256#32) (BitVec.ofNat 32 r)) (BitVec.ofNat 32 j)) 1#1) = 1#1
      ↔ b = 1#1 ∧ t * 256 + r ≠ j := by
  have e : IntOp.addi (Scalar.muli (BitVec.ofNat 32 t) 256#32) (BitVec.ofNat 32 r) = BitVec.ofNat 32 (t * 256 + r) := by
    apply BitVec.eq_of_toNat_eq
    show ((BitVec.ofNat 32 t * 256#32 + BitVec.ofNat 32 r : BitVec 32)).toNat = _
    rw [BitVec.toNat_add, BitVec.toNat_mul]
    simp only [BitVec.toNat_ofNat]
    omega
  rw [e]
  by_cases h : t * 256 + r = j
  · have hc : IntOp.cmpi .eq (BitVec.ofNat 32 (t * 256 + r)) (BitVec.ofNat 32 j) = 1#1 := (cmpi_eq_one_iff _ _).mpr (by rw [h])
    rw [hc]
    rcases BitVec.eq_zero_or_eq_one b with hb | hb <;> subst hb <;> simp [IntOp.andi, IntOp.xori, h]
  · have hne : BitVec.ofNat 32 (t * 256 + r) ≠ BitVec.ofNat 32 j := fun hh => h (by
      have := congrArg BitVec.toNat hh
      simp only [BitVec.toNat_ofNat] at this
      omega)
    have hc : IntOp.cmpi .eq (BitVec.ofNat 32 (t * 256 + r)) (BitVec.ofNat 32 j) = 0#1 :=
      eq_zero_of_ne_one fun h1 => hne ((cmpi_eq_one_iff _ _).mp h1)
    rw [hc]
    rcases BitVec.eq_zero_or_eq_one b with hb | hb <;> subst hb <;> simp [IntOp.andi, IntOp.xori, h]

/-- The off-diagonal mask of a point's block: the global row number is not the column number. -/
def offDiag (a c : BitVec 32) : IVec S256x8192 1 :=
  xori (cmpi .eq (addi (broadcast S256x8192 (Scalar.muli a c)) (iota .tc S256x8192 32 [0] iota_S256x8192_d0_w32))
    (iota .tc S256x8192 32 [1] iota_S256x8192_d1_w32)) (constantI S256x8192 1 1#1)

theorem offDiag_apply (a c : BitVec 32) (r : Fin 256) (j : Fin 8192) :
    offDiag a c (ix2 r j) = IntOp.xori (IntOp.cmpi .eq (IntOp.addi (Scalar.muli a c) (BitVec.ofNat 32 r.val)) (BitVec.ofNat 32 j.val)) 1#1 := by
  unfold offDiag
  show IntOp.xori (IntOp.cmpi .eq (IntOp.addi (Scalar.muli a c) (iota .tc S256x8192 32 [0] iota_S256x8192_d0_w32 (ix2 r j)))
    (iota .tc S256x8192 32 [1] iota_S256x8192_d1_w32 (ix2 r j))) 1#1 = _
  rw [iota_single_apply, iota_single_apply]

/-- The stored payload is the lane sum of the log-probabilities selected by the mask off the diagonal. -/
theorem k0_pay1_eq (a c : BitVec 32) (m : IVec S256x8192 1) (P : FVec Ideal S256x8192 .f32) :
    k0_pay1 (F := Ideal) a m P c
      = multiReduction (F := Ideal) .add [1] S256 (select (andi m (offDiag a c)) P (broadcast S256x8192 (Scalar.ofBits (F := Ideal) .f32 0x00000000#32)))
          0x00000000#32 reduces_S256x8192_S256 (.inl rfl) rfl := rfl

theorem hz1 : (![0] : Fin 1 → Nat) = fun _ => 0 := funext fun a => by fin_cases a; rfl
theorem hz2 : (![0, 0] : Fin 2 → Nat) = fun _ => 0 := funext fun a => by fin_cases a <;> rfl

/-- The 256 results of a point are that payload of the six blocks themselves (each is loaded whole). -/
theorem pay6_eq (i : grid0.Coords) (x0 : Vec Ideal S256x256 .bf16) (x1 : Vec Ideal S8192x256 .bf16) (x2 : Vec Ideal S256x256 .bf16)
    (x3 : Vec Ideal S8192x256 .bf16) (x4 : Vec Ideal S256x1 .i32) (x5 : Vec Ideal S1x8192 .i32) :
    pay6 (F := Ideal) i x0 x1 x2 x3 x4 x5
      = k0_pay1 (F := Ideal) (BitVec.ofNat 32 (i 0).val) (k0_pay2 (F := Ideal) x4 x5) (k0_pay3 (F := Ideal) x0 x2 x1 x3 x4 x5) 256#32 := by
  unfold pay6
  simp only [View.ld_unit_zero (S := S256x256) hz2, View.ld_unit_zero (S := S8192x256) hz2, View.ld_unit_zero (S := S256x1) hz2,
    View.ld_unit_zero (S := S1x8192) hz2]

/-- THE PAYLOAD AT A ROW: row r of the block of point i 0, which is row R = 256 (i 0) + r of the arrays, holds the
    specification's sum for row R, when the six blocks hold the arrays' entries the pipeline hands them. -/
theorem pay6_apply (i : grid0.Coords) (x0 : Vec Ideal S256x256 .bf16) (x1 : Vec Ideal S8192x256 .bf16) (x2 : Vec Ideal S256x256 .bf16)
    (x3 : Vec Ideal S8192x256 .bf16) (x4 : Vec Ideal S256x1 .i32) (x5 : Vec Ideal S1x8192 .i32)
    (f g : Fin 8192 → Fin 256 → EReal) (lab : Fin 8192 → BitVec 32) (R : Fin 8192) (r : Fin 256)
    (hR : R.val = (i 0).val * 256 + r.val)
    (h0 : ∀ k, x0 (ix2 r k) = f R k) (h1 : ∀ j k, x1 (ix2 j k) = f j k)
    (h2 : ∀ k, x2 (ix2 r k) = g R k) (h3 : ∀ j k, x3 (ix2 j k) = g j k)
    (h4 : x4 (ix2 r (0 : Fin 1)) = lab R) (h5 : ∀ j, x5 (ix2 (0 : Fin 1) j) = lab j) :
    pay6 (F := Ideal) i x0 x1 x2 x3 x4 x5 (ix1 r) = numK (logitsK κv f g) lab R := by
  have ht : (i 0).val < 32 := (i 0).isLt
  have hL : ∀ j, lgt x0 x2 x1 x3 (ix2 r j) = logitsK κv f g R j := lgt_apply x0 x2 x1 x3 f g R r h0 h2 h1 h3
  have hm : ∀ j, k0_pay2 (F := Ideal) x4 x5 (ix2 r j) = 1#1 ↔ lab R = lab j := fun j => by
    rw [mask_apply, h4, h5]; exact cmpi_eq_one_iff _ _
  rw [pay6_eq, k0_pay1_eq, rowSum_apply, k0_pay3_eq]
  unfold numK
  refine Finset.sum_congr rfl fun j _ => ?_
  rw [select_apply, broadcast_apply, lpr_apply (lgt x0 x2 x1 x3) (logitsK κv f g) R r hL (k0_pay2 (F := Ideal) x4 x5) lab hm j]
  show (if IntOp.andi (k0_pay2 (F := Ideal) x4 x5 (ix2 r j)) (offDiag (BitVec.ofNat 32 (i 0).val) 256#32 (ix2 r j)) = 1#1
      then logProb (logitsK κv f g) (negK (logitsK κv f g) lab) R j else Ideal.ofBits .f32 0x00000000#32) = _
  rw [Ideal.ofBits_zero_f32, offDiag_apply]
  refine if_congr ?_ rfl rfl
  rw [offDiag_word (i 0).val r.val j.val ht r.isLt j.isLt, hm j]
  refine and_congr_right fun _ => not_congr ?_
  rw [← hR]
  exact ⟨fun h => Fin.ext h, fun h => congrArg Fin.val h⟩

/-! ## From blocks to the array -/

-- the core's buffer contents when the region is entered
variable (V : (c : Dev nD) → (b : Ref sig .tc) → Buf (Elt Ideal) ((c : Thread nD τ).loc b))

/-- The printed index maps, decided over the 32 points: the row blocks (windows 0, 2, 4 and the result's) sit at block
    row t, the whole arrays (windows 1, 3, 5) at block 0, and the point's one coordinate is t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 1) = t.val
    ∧ (grid0.coords t 0).val = t.val :=
  (by decide +kernel : ∀ t : Fin grid0.N, _)

/-- Window 0's block at point t is rows 256 t … 256 t + 255 of the first feature part. -/
theorem iblk0_0_apply (c : Dev nD) (t : Fin cfg0.N) (r k : Fin 256) (R : Fin 8192) (hR : R.val = t.val * 256 + r.val) :
    (iblk0 V c 0 t : Vec Ideal S256x256 .bf16) (ix2 r k) = V c main_v37 (ix2 R k) := by
  obtain ⟨e00, e01, e10, e11, e20, e21, e30, e31, e40, e41, e50, e51, e6, eg⟩ := idx_facts t
  unfold iblk0
  rw [View.read_apply]
  show V c main_v37 _ = V c main_v37 _
  congr 1
  funext a; apply Fin.ext
  match a with
  | ⟨0, _⟩ => show win0_0.index t (0 : Fin 2) * 256 + 1 * r.val = R.val; rw [e00, hR]; omega
  | ⟨1, _⟩ => show win0_0.index t (1 : Fin 2) * 256 + 1 * k.val = k.val; rw [e01]; omega

/-- Window 1's block at every point is the whole first feature part. -/
theorem iblk0_1_apply (c : Dev nD) (t : Fin cfg0.N) (j : Fin 8192) (k : Fin 256) :
    (iblk0 V c 1 t : Vec Ideal S8192x256 .bf16) (ix2 j k) = V c main_v37 (ix2 j k) := by
  obtain ⟨e00, e01, e10, e11, e20, e21, e30, e31, e40, e41, e50, e51, e6, eg⟩ := idx_facts t
  unfold iblk0
  rw [View.read_apply]
  show V c main_v37 _ = V c main_v37 _
  congr 1
  funext a; apply Fin.ext
  match a with
  | ⟨0, _⟩ => show win0_1.index t (0 : Fin 2) * 8192 + 1 * j.val = j.val; rw [e10]; omega
  | ⟨1, _⟩ => show win0_1.index t (1 : Fin 2) * 256 + 1 * k.val = k.val; rw [e11]; omega

/-- Window 2's block at point t is rows 256 t … 256 t + 255 of the second feature part. -/
theorem iblk0_2_apply (c : Dev nD) (t : Fin cfg0.N) (r k : Fin 256) (R : Fin 8192) (hR : R.val = t.val * 256 + r.val) :
    (iblk0 V c 2 t : Vec Ideal S256x256 .bf16) (ix2 r k) = V c main_v40 (ix2 R k) := by
  obtain ⟨e00, e01, e10, e11, e20, e21, e30, e31, e40, e41, e50, e51, e6, eg⟩ := idx_facts t
  unfold iblk0
  rw [View.read_apply]
  show V c main_v40 _ = V c main_v40 _
  congr 1
  funext a; apply Fin.ext
  match a with
  | ⟨0, _⟩ => show win0_2.index t (0 : Fin 2) * 256 + 1 * r.val = R.val; rw [e20, hR]; omega
  | ⟨1, _⟩ => show win0_2.index t (1 : Fin 2) * 256 + 1 * k.val = k.val; rw [e21]; omega

/-- Window 3's block at every point is the whole second feature part. -/
theorem iblk0_3_apply (c : Dev nD) (t : Fin cfg0.N) (j : Fin 8192) (k : Fin 256) :
    (iblk0 V c 3 t : Vec Ideal S8192x256 .bf16) (ix2 j k) = V c main_v40 (ix2 j k) := by
  obtain ⟨e00, e01, e10, e11, e20, e21, e30, e31, e40, e41, e50, e51, e6, eg⟩ := idx_facts t
  unfold iblk0
  rw [View.read_apply]
  show V c main_v40 _ = V c main_v40 _
  congr 1
  funext a; apply Fin.ext
  match a with
  | ⟨0, _⟩ => show win0_3.index t (0 : Fin 2) * 8192 + 1 * j.val = j.val; rw [e30]; omega
  | ⟨1, _⟩ => show win0_3.index t (1 : Fin 2) * 256 + 1 * k.val = k.val; rw [e31]; omega

/-- Window 4's block at point t is rows 256 t … 256 t + 255 of the class column. -/
theorem iblk0_4_apply (c : Dev nD) (t : Fin cfg0.N) (r : Fin 256) (R : Fin 8192) (hR : R.val = t.val * 256 + r.val) :
    (iblk0 V c 4 t : Vec Ideal S256x1 .i32) (ix2 r (0 : Fin 1)) = V c main_v21 (ix2 R (0 : Fin 1)) := by
  obtain ⟨e00, e01, e10, e11, e20, e21, e30, e31, e40, e41, e50, e51, e6, eg⟩ := idx_facts t
  unfold iblk0
  rw [View.read_apply]
  show V c main_v21 _ = V c main_v21 _
  congr 1
  funext a; apply Fin.ext
  match a with
  | ⟨0, _⟩ => show win0_4.index t (0 : Fin 2) * 256 + 1 * r.val = R.val; rw [e40, hR]; omega
  | ⟨1, _⟩ => show win0_4.index t (1 : Fin 2) * 1 + 1 * 0 = 0; rw [e41]

/-- Window 5's block at every point is the whole class row. -/
theorem iblk0_5_apply (c : Dev nD) (t : Fin cfg0.N) (j : Fin 8192) :
    (iblk0 V c 5 t : Vec Ideal S1x8192 .i32) (ix2 (0 : Fin 1) j) = V c main_v22 (ix2 (0 : Fin 1) j) := by
  obtain ⟨e00, e01, e10, e11, e20, e21, e30, e31, e40, e41, e50, e51, e6, eg⟩ := idx_facts t
  unfold iblk0
  rw [View.read_apply]
  show V c main_v22 _ = V c main_v22 _
  congr 1
  funext a; apply Fin.ext
  match a with
  | ⟨0, _⟩ => show win0_5.index t (0 : Fin 2) * 1 + 1 * 0 = 0; rw [e50]
  | ⟨1, _⟩ => show win0_5.index t (1 : Fin 2) * 8192 + 1 * j.val = j.val; rw [e51]; omega

/-- What the result array ends holding: at row i the specification's sum for row i, of the tiled logits of the two
    feature parts as the region finds them. -/
def G6 (c : Dev nD) (sl : Fin 16 → BitVec 32) : S8192.Idx → EReal := fun j =>
  numK (logitsK κv (fun i k => V c main_v37 (ix2 i k)) (fun i k => V c main_v40 (ix2 i k))) (labOf sl) ⟨(j 0).val, (j 0).isLt⟩

section Rows
variable (c : Dev nD) (sl : Fin 16 → BitVec 32)
  (hrow : ∀ i : Fin 8192, V c main_v21 (ix2 i (0 : Fin 1)) = labOf sl i)
  (hcol : ∀ j : Fin 8192, V c main_v22 (ix2 (0 : Fin 1) j) = labOf sl j)
include hrow hcol

/-- WHAT POINT t WRITES BACK is block t of that array: rows 256 t … 256 t + 255. -/
theorem flushed6_eq (t : Fin cfg0.N) :
    (dat0 (F := Ideal) V c).flushed 6 t = ((cfg0.win 6).blk t).view.read (Elt Ideal) (G6 V c sl) := by
  show (cfg0.win 6).cut (grid0.coords t) ((dat0 (F := Ideal) V c).after 6 t) = _
  rw [after0_6]
  unfold out0_6
  rw [View.canon_unit_zero hz1]
  obtain ⟨e00, e01, e10, e11, e20, e21, e30, e31, e40, e41, e50, e51, e6, eg⟩ := idx_facts t
  have ht : t.val < 32 := Nat.lt_of_lt_of_eq t.isLt N_0
  funext y
  have hy : (y 0).val < 256 := (y 0).isLt
  have hRlt : t.val * 256 + (y 0).val < 8192 := by omega
  have ey : (cfg0.win 6).xinj (grid0.coords t) y = ix1 (⟨(y 0).val, hy⟩ : Fin 256) := funext fun a => by
    match a with
    | ⟨0, _⟩ => rfl
  have hR : ((⟨t.val * 256 + (y 0).val, hRlt⟩ : Fin 8192)).val = (grid0.coords t 0).val * 256 + ((⟨(y 0).val, hy⟩ : Fin 256)).val := by
    rw [eg]
  have hR' : ((⟨t.val * 256 + (y 0).val, hRlt⟩ : Fin 8192)).val = t.val * 256 + ((⟨(y 0).val, hy⟩ : Fin 256)).val := rfl
  show pay6 (F := Ideal) (grid0.coords t) (iblk0 V c 0 t) (iblk0 V c 1 t) (iblk0 V c 2 t) (iblk0 V c 3 t) (iblk0 V c 4 t) (iblk0 V c 5 t)
      ((cfg0.win 6).xinj (grid0.coords t) y) = G6 V c sl (((cfg0.win 6).blk t).view.emb y)
  rw [ey]
  have key := pay6_apply (grid0.coords t) (iblk0 V c 0 t) (iblk0 V c 1 t) (iblk0 V c 2 t) (iblk0 V c 3 t) (iblk0 V c 4 t) (iblk0 V c 5 t)
    (fun i k => V c main_v37 (ix2 i k)) (fun i k => V c main_v40 (ix2 i k)) (labOf sl)
    (⟨t.val * 256 + (y 0).val, hRlt⟩ : Fin 8192) (⟨(y 0).val, hy⟩ : Fin 256) hR
    (fun k => iblk0_0_apply V c t (⟨(y 0).val, hy⟩ : Fin 256) k (⟨t.val * 256 + (y 0).val, hRlt⟩ : Fin 8192) hR')
    (fun j k => iblk0_1_apply V c t j k)
    (fun k => iblk0_2_apply V c t (⟨(y 0).val, hy⟩ : Fin 256) k (⟨t.val * 256 + (y 0).val, hRlt⟩ : Fin 8192) hR')
    (fun j k => iblk0_3_apply V c t j k)
    ((iblk0_4_apply V c t (⟨(y 0).val, hy⟩ : Fin 256) (⟨t.val * 256 + (y 0).val, hRlt⟩ : Fin 8192) hR').trans (hrow (⟨t.val * 256 + (y 0).val, hRlt⟩ : Fin 8192)))
    (fun j => (iblk0_5_apply V c t j).trans (hcol j))
  refine key.trans ?_
  have eidx : (⟨t.val * 256 + (y 0).val, hRlt⟩ : Fin 8192) = ⟨((((cfg0.win 6).blk t).view.emb y) 0).val, ((((cfg0.win 6).blk t).view.emb y) 0).isLt⟩ := by
    apply Fin.ext
    show t.val * 256 + (y 0).val = win0_6.index t (0 : Fin 1) * 256 + 1 * (y 0).val
    rw [e6]; omega
  exact congrArg (numK (logitsK κv (fun i k => V c main_v37 (ix2 i k)) (fun i k => V c main_v40 (ix2 i k))) (labOf sl)) eidx

end Rows

/-- An index of the result array is in point t's block iff its coordinate is in the block's 256 rows. -/
theorem mem_blk6 (t : Fin cfg0.N) (i : S8192.Idx) :
    i ∈ ((cfg0.win 6).blk t).view.set ↔ ∀ a : Fin 1, win0_6.index t a * S256.size a ≤ (i a).val ∧ (i a).val < win0_6.index t a * S256.size a + S256.size a := by
  show i ∈ ((View.whole main_v41).slice (win0_6.rect t)).set ↔ _
  rw [View.set_slice_whole, Rect.mem_set_unit]
  exact Iff.rfl

/-- Every row is in the block of the point its number divided by 256 names. -/
theorem cover6 (i : S8192.Idx) : ∃ t : Fin cfg0.N, (cfg0.win 6).flush t = true ∧ i ∈ ((cfg0.win 6).blk t).view.set := by
  have hi : (i 0).val < 8192 := (i 0).isLt
  have hN : cfg0.N = 32 := N_0
  have ht : (i 0).val / 256 < cfg0.N := by rw [hN]; omega
  obtain ⟨e00, e01, e10, e11, e20, e21, e30, e31, e40, e41, e50, e51, e6, eg⟩ := idx_facts ⟨(i 0).val / 256, ht⟩
  refine ⟨⟨(i 0).val / 256, ht⟩, flush0_6 _, ?_⟩
  rw [mem_blk6]
  intro a
  match a with
  | ⟨0, _⟩ =>
    show win0_6.index ⟨(i 0).val / 256, ht⟩ (0 : Fin 1) * 256 ≤ (i 0).val ∧ (i 0).val < win0_6.index ⟨(i 0).val / 256, ht⟩ (0 : Fin 1) * 256 + 256
    rw [e6]
    show (i 0).val / 256 * 256 ≤ (i 0).val ∧ (i 0).val < (i 0).val / 256 * 256 + 256
    omega

end Value

open Value

/-- THE RESULT ARRAY after the 32 write-backs, at row i: the specification's sum of the tiled logits. -/
theorem arrAt6_apply (V : (c : Dev nD) → (b : Ref sig .tc) → Buf (Elt Ideal) ((c : Thread nD τ).loc b)) (c : Dev nD) (sl : Fin 16 → BitVec 32)
    (hrow : ∀ i : Fin 8192, V c main_v21 (ix2 i (0 : Fin 1)) = labOf sl i)
    (hcol : ∀ j : Fin 8192, V c main_v22 (ix2 (0 : Fin 1) j) = labOf sl j) (i : Fin 8192) :
    (dat0 (F := Ideal) V c).arrAt 6 cfg0.N (ix1 i)
      = numK (logitsK (Named.named (F := Ideal) κ "inv_temperature" (φ := .f32) 0x41200000#32)
          (fun i k => V c main_v37 (ix2 i k)) (fun i k => V c main_v40 (ix2 i k))) (labOf sl) i :=
  congrFun ((dat0 (F := Ideal) V c).arrAt_eq_of_cover 6 (G6 V c sl) (fun t _ => flushed6_eq V c sl hrow hcol t) cover6) (ix1 i)

end Cert.KernelIdeal.Hand

end
-- ==== Proof.KernelIdeal.HostFeat.lean ====
/-
  The features both programs work on. Each program builds them from its arguments by one chain of host operations: the
  sampled indices are normalised (a negative index counts from the end), joined into pairs, the rows they name are
  gathered from the feature maps, and the result is transposed and reshaped into the 8192 × 256 matrix of rows in
  view-major order. The chain is never opened here: it is carried as ONE function of the three arguments it reads,
  the dense program's own name for it.

  On top of it the tiled program splits the features in two parts for its kernel: the part a narrower format keeps and
  the part it drops. With exact arithmetic a change of format is the identity, so the first part is the features
  themselves and the second is their difference with themselves.

  Every entry of the features IS an entry of the first argument (a gather reads, it does not compute), so the features
  are real numbers as soon as the first argument's entries are; and the precondition says that they are.
-/
import proofs.«419777_j60876866453606_3_alg».proof.Proof.KernelIdeal.Vals
import proofs.«419777_j60876866453606_3_alg».proof.Proof.Gen.ReferenceIdeal.Read
import proofs.«419777_j60876866453606_3_alg».proof.Defs
import Idealize.ShloMosaic.Lib.StableHlo.Run
import Idealize.ShloMosaic.Lib.ReduceAll
import Idealize.ShloMosaic.Lib.ValueIdx
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen

variable (m : (ℓ : Loc nD τ sig) → Buf (Elt Ideal) ℓ)

/-- The features: the dense program's chain of host operations, applied to the tiled program's first three arguments. -/
def feat (c : Dev nD) : S8192x256.Idx → EReal :=
  Cert.ReferenceIdeal.Read.val_main_v23 (F := Ideal) (m ((c : Thread nD τ).loc main_arg0))
    (m ((c : Thread nD τ).loc main_arg1)) (m ((c : Thread nD τ).loc main_arg2))

/-- What a core's buffer holds at the kernel region's entry is the fold of the host operations before it. -/
theorem V1_eq_after (c : Dev nD) (b : Ref sig .tc) :
    V1 (F := Ideal) m c b = StableHlo.after hostOps0 (W0 m c) (Proc.devRef .tc b) := rfl

set_option maxHeartbeats 400000 in
/-- The tiled program's feature matrix is the same chain of the same arguments: operation by operation the two
    programs carry the same literal data. -/
theorem V1_v17 (c : Dev nD) : (V1 (F := Ideal) m c main_v17 : S8192x256.Idx → EReal) = feat m c := by
  show StableHlo.after hostOps0 (W0 m c) (Proc.devRef .tc main_v17) = _
  after_results_simp
  rfl

set_option maxHeartbeats 400000 in
/-- The first part handed to the kernel is the feature matrix narrowed. -/
theorem V1_v37_vec (c : Dev nD) :
    @Eq (FVec Ideal S8192x256 .bf16) (V1 (F := Ideal) m c main_v37)
      (truncf (F := Ideal) (s := S8192x256) (φ := .f32) .bf16 (V1 (F := Ideal) m c main_v17) Gen.bitsLt_bf16_f32) := by
  show @Eq (FVec Ideal S8192x256 .bf16) (StableHlo.after hostOps0 (W0 m c) (Proc.devRef .tc main_v37))
    (truncf (F := Ideal) (s := S8192x256) (φ := .f32) .bf16 (StableHlo.after hostOps0 (W0 m c) (Proc.devRef .tc main_v17))
        Gen.bitsLt_bf16_f32)
  after_results_simp

set_option maxHeartbeats 400000 in
/-- The second part is what narrowing drops: the matrix minus its narrowed copy widened again, narrowed. -/
theorem V1_v40_vec (c : Dev nD) :
    @Eq (FVec Ideal S8192x256 .bf16) (V1 (F := Ideal) m c main_v40)
      (truncf (F := Ideal) (s := S8192x256) (φ := .f32) .bf16
        (subf (F := Ideal) (s := S8192x256) (φ := .f32) (V1 (F := Ideal) m c main_v17)
          (extf (F := Ideal) (s := S8192x256) (φ := .bf16) .f32
            (truncf (F := Ideal) (s := S8192x256) (φ := .f32) .bf16 (V1 (F := Ideal) m c main_v17) Gen.bitsLt_bf16_f32)
            Gen.bitsLt_bf16_f32)) Gen.bitsLt_bf16_f32) := by
  show @Eq (FVec Ideal S8192x256 .bf16) (StableHlo.after hostOps0 (W0 m c) (Proc.devRef .tc main_v40))
      (truncf (F := Ideal) (s := S8192x256) (φ := .f32) .bf16
        (subf (F := Ideal) (s := S8192x256) (φ := .f32) (StableHlo.after hostOps0 (W0 m c) (Proc.devRef .tc main_v17))
          (extf (F := Ideal) (s := S8192x256) (φ := .bf16) .f32
            (truncf (F := Ideal) (s := S8192x256) (φ := .f32) .bf16
              (StableHlo.after hostOps0 (W0 m c) (Proc.devRef .tc main_v17)) Gen.bitsLt_bf16_f32)
            Gen.bitsLt_bf16_f32)) Gen.bitsLt_bf16_f32)
  after_results_simp

/-- With exact arithmetic narrowing is the identity: the first part is the features. -/
theorem V1_v37 (c : Dev nD) (p : S8192x256.Idx) : V1 (F := Ideal) m c main_v37 p = feat m c p := by
  refine (congrFun (V1_v37_vec m c) p).trans ?_
  rw [ValueIdx.truncf_apply, V1_v17]

/-- And the second part is the features minus themselves. -/
theorem V1_v40 (c : Dev nD) (p : S8192x256.Idx) :
    V1 (F := Ideal) m c main_v40 p = feat m c p - feat m c p := by
  refine (congrFun (V1_v40_vec m c) p).trans ?_
  rw [ValueIdx.truncf_apply, ValueIdx.subf_apply, ValueIdx.extf_apply, ValueIdx.truncf_apply, V1_v17]

/-- A gathered entry is an entry of the gathered array, the transpose and the reshape read one entry each: every
    feature is one of the first argument's entries, so real when they all are. -/
theorem feat_real (c : Dev nD) (hx : ∀ q, ∃ r : ℝ, m ((c : Thread nD τ).loc main_arg0) q = (r : EReal)) :
    ∀ p, ∃ r : ℝ, feat m c p = (r : EReal) := by
  intro p
  unfold feat
  rw [Cert.ReferenceIdeal.Read.val_main_v23_apply, Cert.ReferenceIdeal.Read.val_main_v22_apply]
  unfold Cert.ReferenceIdeal.Read.val_main_v15 Host.gather
  exact hx _

section Finite

variable [Cert.Pre_finite_inputs.Facts]

/-- The scalar shape has one index. -/
local instance : Subsingleton Cert.Pre_finite_inputs.S_.Idx := ⟨fun a b => funext fun d => d.elim0⟩

/-- The word 0x7F800000 is +∞. -/
private theorem inf_word : Ideal.ofBits .f32 0x7F800000#32 = (⊤ : EReal) := by
  simp [Ideal.ofBits, Ideal.ieee]

/-- An extended real whose absolute value is below +∞ is a real number. -/
private theorem real_of_abs_lt_inf (y : EReal)
    (h : Ideal.cmp .olt (max y (-y)) (Ideal.ofBits .f32 0x7F800000#32) = 1#1) : ∃ r : ℝ, y = (r : EReal) := by
  rw [inf_word] at h
  induction y using EReal.rec with
  | bot => simp [Ideal.cmp] at h
  | coe r => exact ⟨r, rfl⟩
  | top => simp [Ideal.cmp] at h

/-- The precondition says |x| < +∞ at every entry of the first argument: every entry is a real number. -/
theorem finite_of_pre (h : Cert.Pre_KernelIdeal m) (c : Dev nD) :
    ∀ q, ∃ r : ℝ, m ((c.tc : Thread Cert.KernelIdeal.nD Cert.KernelIdeal.τ).loc Cert.KernelIdeal.main_arg0) q = (r : EReal) := by
  intro q
  have h0 := congrFun (h c) ValueIdx.ix0
  dsimp only [Cert.Pre_finite_inputs.fn] at h0
  have h1 := Host.reduce_andi_all _ _ _ _ _ h0 q
  exact real_of_abs_lt_inf (m ((c.tc : Thread Cert.KernelIdeal.nD Cert.KernelIdeal.τ).loc Cert.KernelIdeal.main_arg0) q) h1

end Finite

end Cert.KernelIdeal.Hand

end
-- ==== Proof.KernelIdeal.HostTail.lean ====
/-
  The host operations around the kernel region, read at an index.

  Before the region the program builds, from the 16 anchor labels sl, the class vector of the 8192 rows (the labels as
  one row, broadcast over the 512 views, flattened view-major: row i has the label of anchor i mod 16) in its column and
  row forms, and the positives count of every row: 512 times the number of anchors of the row's class (the sum over the
  anchors a' of 1 where the labels agree, from the initial 0), less 1 for the row itself, again broadcast over the
  views and flattened. After the region it divides the per-row sums the region left by those counts, scales each
  quotient, sums the 8192 of them from 0, divides by the row count and multiplies by the loss weight.

  Each array is first written as the term of the operations that produced it, then read at an index: a reshape at the
  index with the same row-major position (flat row i of [512, 16] is (i / 16, i mod 16)), a broadcast at the operand's
  index with 0 on the unit axes, a comparison, conversion or arithmetic operation element by element, a host sum as the
  initial value plus the sum over the summed axis.
-/
import proofs.«419777_j60876866453606_3_alg».proof.Proof.KernelIdeal.Vals
import proofs.«419777_j60876866453606_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Contrast

variable (m : (ℓ : Loc nD τ sig) → Buf (Elt Ideal) ℓ)

/-- The 16 anchor labels core c holds at launch. -/
def sl (c : Dev nD) (a : Fin 16) : BitVec 32 := m ((c : Thread nD τ).loc main_arg3) (ValueIdx.ix1 a)

/-! ## The arrays as the terms of the operations that wrote them -/

/-- The class column: the labels as one row, broadcast over the 512 views, flattened, then as a column. -/
theorem v21_term (c : Dev nD) :
    (V1 (F := Ideal) m c main_v21 : S8192x1.Idx → BitVec 32)
      = shapeCast S8192x1 (shapeCast S8192 (broadcastInDim S512x16 ![0, 1] bcast_S1x16_S512x16_0_1
          (shapeCast S1x16 (m ((c : Thread nD τ).loc main_arg3)) shapeCasts_S16_S1x16)) shapeCasts_S512x16_S8192) shapeCasts_S8192_S8192x1 := by
  show StableHlo.after hostOps0 _ (Proc.devRef .tc main_v21) = _
  after_results
  rfl

/-- The class row: the same flattened vector as a row. -/
theorem v22_term (c : Dev nD) :
    (V1 (F := Ideal) m c main_v22 : S1x8192.Idx → BitVec 32)
      = shapeCast S1x8192 (shapeCast S8192 (broadcastInDim S512x16 ![0, 1] bcast_S1x16_S512x16_0_1
          (shapeCast S1x16 (m ((c : Thread nD τ).loc main_arg3)) shapeCasts_S16_S1x16)) shapeCasts_S512x16_S8192) shapeCasts_S8192_S1x8192 := by
  show StableHlo.after hostOps0 _ (Proc.devRef .tc main_v22) = _
  after_results
  rfl

/-- The positives counts: per anchor, 512 times the sum from 0 over the anchors of the converted label comparison, less
    1; then as one row, broadcast over the 512 views and flattened. -/
theorem v36_term (c : Dev nD) :
    (V1 (F := Ideal) m c main_v36 : S8192.Idx → EReal)
      = shapeCast S8192 (broadcastInDim S512x16 ![0, 1] bcast_S1x16_S512x16_0_1
          (shapeCast S1x16
            (subf (F := Ideal) (φ := .f32)
              (mulf (F := Ideal) (φ := .f32) (broadcastInDim S16 ![] bcast_S_S16 (constant (F := Ideal) S_ .f32 0x44000000#32))
                (Host.reduceAdd (F := Ideal) (φ := .f32)
                  (uitofp (F := Ideal) .f32 (cmpi .eq
                    (broadcastInDim S16x16 ![0, 1] bcast_S16x1_S16x16_0_1 (broadcastInDim S16x1 ![0] bcast_S16_S16x1_0 (m ((c : Thread nD τ).loc main_arg3))))
                    (broadcastInDim S16x16 ![0, 1] bcast_S1x16_S16x16_0_1 (broadcastInDim S1x16 ![1] bcast_S16_S1x16_1 (m ((c : Thread nD τ).loc main_arg3))))))
                  (constant (F := Ideal) S_ .f32 0x00000000#32) reducesTo_S16x16_S16_d1 h_S_))
              (broadcastInDim S16 ![] bcast_S_S16 (constant (F := Ideal) S_ .f32 0x3F800000#32)))
            shapeCasts_S16_S1x16)) shapeCasts_S512x16_S8192 := by
  show StableHlo.after hostOps0 _ (Proc.devRef .tc main_v36) = _
  after_results
  rfl

/-- The result: the region's per-row sums over the positives counts, scaled, summed from 0, divided by the row count
    and multiplied by the weight. -/
theorem v47_term (c : Dev nD) :
    (W3 (F := Ideal) m c (Proc.devRef .tc main_v47) : S_.Idx → EReal)
      = mulf (F := Ideal) (φ := .f32) (constant (F := Ideal) S_ .f32 0x3DCCCCCD#32)
          (Host.divf (F := Ideal) (φ := .f32)
            (Host.reduceAdd (F := Ideal) (φ := .f32)
              (mulf (F := Ideal) (φ := .f32) (broadcastInDim S8192 ![] bcast_S_S8192 (constant (F := Ideal) S_ .f32 0xBFB6DB6E#32))
                (Host.divf (F := Ideal) (φ := .f32) (W2 m c (Proc.devRef .tc main_v41)) (W2 m c (Proc.devRef .tc main_v36))))
              (constant (F := Ideal) S_ .f32 0x00000000#32) reducesTo_S8192_S_d0 h_S_)
            (constant (F := Ideal) S_ .f32 0x46000000#32)) := by
  show StableHlo.after hostOps1 _ (Proc.devRef .tc main_v47) = _
  after_results

/-! ## The layout operations of these shapes, read at coordinates -/

section Layout
variable {α : Type}

/-- An [n] array as [n, 1]: row i holds element i. -/
theorem cast_n_n1 {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    omega)

/-- A [512, 16] array as [8192]: flat row i is (i / 16, i mod 16), row-major. -/
theorem cast_512x16_8192 (x : S512x16.Idx → α) (h : S512x16.ShapeCasts S8192) (i : Fin 8192) :
    shapeCast S8192 x h (ValueIdx.ix1 i)
      = x (ValueIdx.ix2 (⟨i.val / 16, by have := i.isLt; omega⟩ : Fin 512) (⟨i.val % 16, Nat.mod_lt _ (by decide)⟩ : Fin 16)) :=
  shapeCast_apply x h _ _ (by
    rw [Shape.rowMajor_val_two, Shape.rowMajor_val_one]
    show i.val / 16 * 16 + i.val % 16 = i.val
    omega)

/-- One row of 16 broadcast over 512 rows. -/
theorem bcast_1x16_512x16 (x : S1x16.Idx → α) (h : S1x16.BroadcastsInDim S512x16 (![0, 1] : Fin 2 → Fin S512x16.rank))
    (p : Fin 512) (a : Fin 16) :
    broadcastInDim S512x16 ![0, 1] h x (ValueIdx.ix2 p a) = x (ValueIdx.ix2 (0 : Fin 1) a) :=
  broadcastInDim_apply _ h x _ _ (fun ax => match ax with
    | ⟨0, _⟩ => by show 0 = if (1 : ℕ) = 1 then 0 else p.val; rw [if_pos rfl]
    | ⟨1, _⟩ => by show a.val = if (16 : ℕ) = 1 then 0 else a.val; rw [if_neg (by decide)])

/-- One row of 16 broadcast over 16 rows. -/
theorem bcast_1x16_16x16 (x : S1x16.Idx → α) (h : S1x16.BroadcastsInDim S16x16 (![0, 1] : Fin 2 → Fin S16x16.rank))
    (p : Fin 16) (a : Fin 16) :
    broadcastInDim S16x16 ![0, 1] h x (ValueIdx.ix2 p a) = x (ValueIdx.ix2 (0 : Fin 1) a) :=
  broadcastInDim_apply _ h x _ _ (fun ax => match ax with
    | ⟨0, _⟩ => by show 0 = if (1 : ℕ) = 1 then 0 else p.val; rw [if_pos rfl]
    | ⟨1, _⟩ => by show a.val = if (16 : ℕ) = 1 then 0 else a.val; rw [if_neg (by decide)])

/-- One column of 16 broadcast over 16 columns. -/
theorem bcast_16x1_16x16 (x : S16x1.Idx → α) (h : S16x1.BroadcastsInDim S16x16 (![0, 1] : Fin 2 → Fin S16x16.rank))
    (p : Fin 16) (a : Fin 16) :
    broadcastInDim S16x16 ![0, 1] h x (ValueIdx.ix2 p a) = x (ValueIdx.ix2 p (0 : Fin 1)) :=
  broadcastInDim_apply _ h x _ _ (fun ax => match ax with
    | ⟨0, _⟩ => by show p.val = if (16 : ℕ) = 1 then 0 else p.val; rw [if_neg (by decide)]
    | ⟨1, _⟩ => by show 0 = if (1 : ℕ) = 1 then 0 else a.val; rw [if_pos rfl])

/-- A vector of 16 as a column. -/
theorem bcast_16_16x1 (x : S16.Idx → α) (h : S16.BroadcastsInDim S16x1 (![0] : Fin 1 → Fin S16x1.rank))
    (p : Fin 16) (u : Fin 1) :
    broadcastInDim S16x1 ![0] h x (ValueIdx.ix2 p u) = x (ValueIdx.ix1 p) :=
  broadcastInDim_apply _ h x _ _ (fun ax => match ax with
    | ⟨0, _⟩ => by show p.val = if (16 : ℕ) = 1 then 0 else p.val; rw [if_neg (by decide)])

/-- A vector of 16 as a row. -/
theorem bcast_16_1x16 (x : S16.Idx → α) (h : S16.BroadcastsInDim S1x16 (![1] : Fin 1 → Fin S1x16.rank))
    (u : Fin 1) (a : Fin 16) :
    broadcastInDim S1x16 ![1] h x (ValueIdx.ix2 u a) = x (ValueIdx.ix1 a) :=
  broadcastInDim_apply _ h x _ _ (fun ax => match ax with
    | ⟨0, _⟩ => by show a.val = if (16 : ℕ) = 1 then 0 else a.val; rw [if_neg (by decide)])

/-- A scalar broadcast to any shape reads the scalar. -/
theorem bcast_scalar {t : Shape} (x : S_.Idx → α) (h : S_.BroadcastsInDim t (![] : Fin 0 → Fin t.rank)) (j : t.Idx) :
    broadcastInDim t ![] h x j = x ValueIdx.ix0 :=
  broadcastInDim_apply _ h x j ValueIdx.ix0 (fun ax => ax.elim0)

end Layout

/-! ## The literals -/

/-- The word of 512.0. -/
theorem ofBits_512 : Ideal.ofBits .f32 0x44000000#32 = (512 : EReal) := by
  have h : Ideal.ofBits .f32 0x44000000#32 = ((512 : ℝ) : EReal) := by
    simp [Ideal.ofBits, Ideal.ieee, -EReal.coe_mul]; norm_num
  rw [h]; rfl

/-- The word of 1.0. -/
theorem ofBits_one : Ideal.ofBits .f32 0x3F800000#32 = (1 : EReal) := by
  simp [Ideal.ofBits, Ideal.ieee, -EReal.coe_mul]; norm_num

/-- An equality test converted to a float is 1 where the words agree and 0 where they do not. -/
theorem uitofp_cmpi_eq (x y : BitVec 32) :
    (FloatOps.uitofp (F := Ideal) .f32 (IntOp.cmpi .eq x y) : EReal) = if x = y then 1 else 0 := by
  show (((IntOp.cmpi .eq x y).toNat : ℝ) : EReal) = _
  by_cases hxy : x = y
  · rw [if_pos hxy, hxy]; simp [IntOp.cmpi]
  · rw [if_neg hxy]; simp [IntOp.cmpi, hxy]

/-- An unsigned-integer-to-float conversion at an index converts the element. -/
theorem uitofp_at {s : Shape} {w : ℕ} (φ : FTy) (x : IVec s w) (i : s.Idx) :
    (uitofp (F := Ideal) φ x : FVec Ideal s φ) i = FloatOps.uitofp (F := Ideal) φ (x i) := rfl

/-- An integer comparison at an index compares the elements. -/
theorem cmpi_at {s : Shape} {w : ℕ} (p : CmpIPredicate) (x y : IVec s w) (i : s.Idx) :
    cmpi p x y i = IntOp.cmpi p (x i) (y i) := rfl

/-- A sum over the indices of a rank-1 shape is the sum over its coordinate. -/
theorem sum_idx1 {M : Type*} [AddCommMonoid M] {n : ℕ} (f : (⟨1, ![n]⟩ : Shape).Idx → M) :
    ∑ j, f j = ∑ i : Fin n, f (ValueIdx.ix1 i) :=
  (Equiv.sum_comp (⟨fun j => j 0, ValueIdx.ix1, fun j => (ValueIdx.eq_ix1 j).symm, fun _ => rfl⟩ :
    (⟨1, ![n]⟩ : Shape).Idx ≃ Fin n).symm f).symm

/-! ## The class vector and the positives count -/

/-- The class column: row i holds the label of anchor i mod 16. -/
theorem V1_v21 (c : Dev nD) (i : Fin 8192) :
    V1 (F := Ideal) m c main_v21 (ValueIdx.ix2 i (0 : Fin 1)) = labOf (sl m c) i := by
  rw [v21_term, cast_n_n1, cast_512x16_8192, bcast_1x16_512x16, ValueIdx.shapeCast_a_1a_apply]
  rfl

/-- The class row: column j holds the label of anchor j mod 16. -/
theorem V1_v22 (c : Dev nD) (j : Fin 8192) :
    V1 (F := Ideal) m c main_v22 (ValueIdx.ix2 (0 : Fin 1) j) = labOf (sl m c) j := by
  rw [v22_term, ValueIdx.shapeCast_a_1a_apply, cast_512x16_8192, bcast_1x16_512x16, ValueIdx.shapeCast_a_1a_apply]
  rfl

/-- The number of anchors of anchor a's class, as the host sums it: the initial zero plus, over the 16 anchors, 1 where
    the labels agree. -/
theorem count_apply (x : S16.Idx → BitVec 32) (h' : S16x16.ReducesTo [1] S16) (hu : 0 < S_.numel)
    (h1 : S16x1.BroadcastsInDim S16x16 (![0, 1] : Fin 2 → Fin S16x16.rank)) (h2 : S16.BroadcastsInDim S16x1 (![0] : Fin 1 → Fin S16x1.rank))
    (h3 : S1x16.BroadcastsInDim S16x16 (![0, 1] : Fin 2 → Fin S16x16.rank)) (h4 : S16.BroadcastsInDim S1x16 (![1] : Fin 1 → Fin S1x16.rank))
    (a : Fin 16) :
    Host.reduceAdd (F := Ideal) (φ := .f32)
        (uitofp (F := Ideal) .f32 (cmpi .eq (broadcastInDim S16x16 ![0, 1] h1 (broadcastInDim S16x1 ![0] h2 x))
          (broadcastInDim S16x16 ![0, 1] h3 (broadcastInDim S1x16 ![1] h4 x))))
        (constant (F := Ideal) S_ .f32 0x00000000#32) h' hu (ValueIdx.ix1 a)
      = 0 + ∑ a' : Fin 16, (if x (ValueIdx.ix1 a) = x (ValueIdx.ix1 a') then (1 : EReal) else 0) := by
  have hR : S16x16.Reduces [1] S16 := by decide
  show Ideal.hostReduceAdd h' _ (Ideal.ofBits .f32 0x00000000#32) (ValueIdx.ix1 a) = _
  rw [Ideal.hostReduceAdd_single h' hR, Ideal.ofBits_zero_f32]
  refine congrArg (fun z => (0 : EReal) + z) (Finset.sum_congr rfl fun k _ => ?_)
  have hl : hR.lift (ValueIdx.ix1 a) k = ValueIdx.ix2 a (⟨k.val, k.isLt⟩ : Fin 16) := by
    funext ax
    apply Fin.ext
    match ax with
    | ⟨0, _⟩ => rfl
    | ⟨1, _⟩ => rfl
  rw [hl, uitofp_at, cmpi_at, bcast_16x1_16x16, bcast_16_16x1, bcast_1x16_16x16, bcast_16_1x16, uitofp_cmpi_eq]
  rfl

/-- The positives count as the host computes it, at flat row i: 512 views of every anchor of the row's class, the row
    itself excepted. -/
theorem den_apply (x : S16.Idx → BitVec 32) (i : Fin 8192) :
    shapeCast S8192 (broadcastInDim S512x16 ![0, 1] bcast_S1x16_S512x16_0_1
        (shapeCast S1x16
          (subf (F := Ideal) (φ := .f32)
            (mulf (F := Ideal) (φ := .f32) (broadcastInDim S16 ![] bcast_S_S16 (constant (F := Ideal) S_ .f32 0x44000000#32))
              (Host.reduceAdd (F := Ideal) (φ := .f32)
                (uitofp (F := Ideal) .f32 (cmpi .eq
                  (broadcastInDim S16x16 ![0, 1] bcast_S16x1_S16x16_0_1 (broadcastInDim S16x1 ![0] bcast_S16_S16x1_0 x))
                  (broadcastInDim S16x16 ![0, 1] bcast_S1x16_S16x16_0_1 (broadcastInDim S1x16 ![1] bcast_S16_S1x16_1 x))))
                (constant (F := Ideal) S_ .f32 0x00000000#32) reducesTo_S16x16_S16_d1 h_S_))
            (broadcastInDim S16 ![] bcast_S_S16 (constant (F := Ideal) S_ .f32 0x3F800000#32)))
          shapeCasts_S16_S1x16)) shapeCasts_S512x16_S8192 (ValueIdx.ix1 i)
      = (512 : EReal) * (0 + ∑ a' : Fin 16,
          (if x (ValueIdx.ix1 (⟨i.val % 16, Nat.mod_lt _ (by decide)⟩ : Fin 16)) = x (ValueIdx.ix1 a') then (1 : EReal) else 0)) - 1 := by
  rw [cast_512x16_8192, bcast_1x16_512x16, ValueIdx.shapeCast_a_1a_apply, ValueIdx.subf_apply, ValueIdx.mulf_apply,
    bcast_scalar, bcast_scalar, count_apply, ValueIdx.constant_apply, ValueIdx.constant_apply, ofBits_512, ofBits_one]

/-- The loss as the host computes it from the per-row sums A and the positives counts B: the weight times the mean over
    the 8192 rows of the scaled quotients. -/
theorem loss_apply (A B : FVec Ideal S8192 .f32) :
    mulf (F := Ideal) (φ := .f32) (constant (F := Ideal) S_ .f32 0x3DCCCCCD#32)
        (Host.divf (F := Ideal) (φ := .f32)
          (Host.reduceAdd (F := Ideal) (φ := .f32)
            (mulf (F := Ideal) (φ := .f32) (broadcastInDim S8192 ![] bcast_S_S8192 (constant (F := Ideal) S_ .f32 0xBFB6DB6E#32))
              (Host.divf (F := Ideal) (φ := .f32) A B))
            (constant (F := Ideal) S_ .f32 0x00000000#32) reducesTo_S8192_S_d0 h_S_)
          (constant (F := Ideal) S_ .f32 0x46000000#32)) ValueIdx.ix0
      = lossOf (fun i => A (ValueIdx.ix1 i)) (fun i => B (ValueIdx.ix1 i)) := by
  rw [ValueIdx.mulf_apply, ValueIdx.constant_apply]
  show Ideal.ofBits .f32 0x3DCCCCCD#32
      * Ideal.div (Ideal.hostReduceAdd reducesTo_S8192_S_d0 _ (Ideal.ofBits .f32 0x00000000#32) ValueIdx.ix0) (Ideal.ofBits .f32 0x46000000#32) = _
  rw [Ideal.hostReduceAdd_total reducesTo_S8192_S_d0 (fun b => b.elim0), Ideal.ofBits_zero_f32, sum_idx1]
  unfold lossOf
  refine congrArg (fun z => wLoss * Ideal.div ((0 : EReal) + z) nRows) (Finset.sum_congr rfl fun k _ => ?_)
  rw [ValueIdx.mulf_apply, bcast_scalar, ValueIdx.constant_apply]
  rfl

/-- The positives count of row i: 512 views of every anchor of its class, itself excepted. -/
theorem V1_v36 (c : Dev nD) (i : Fin 8192) :
    V1 (F := Ideal) m c main_v36 (ValueIdx.ix1 i) = denK (sl m c) i := by
  refine (congrFun (v36_term m c) (ValueIdx.ix1 i)).trans ?_
  exact den_apply (m ((c : Thread nD τ).loc main_arg3)) i

/-- The program's result: the loss of the per-row sums the region left over the positives counts. -/
theorem W3_v47 (c : Dev nD) :
    W3 (F := Ideal) m c (Proc.devRef .tc main_v47) ValueIdx.ix0
      = lossOf (fun i => (dat0 (V1 m) c).arrAt 6 cfg0.N (ValueIdx.ix1 i)) (fun i => V1 m c main_v36 (ValueIdx.ix1 i)) := by
  refine (congrFun (v47_term m c) ValueIdx.ix0).trans ?_
  refine (loss_apply (W2 m c (Proc.devRef .tc main_v41)) (W2 m c (Proc.devRef .tc main_v36))).trans ?_
  rw [W2_v41, W2_of_ne m c main_v36 (by decide)]

end Cert.KernelIdeal.Hand

end
-- ==== Proof.ReferenceIdeal.Value.lean ====
/-
  The dense form of the supervised pixel-contrast loss, read one stage at a time at an index, is the
  specification's dense formula `resR` of the feature matrix and the anchors' labels.

  With f i k the features (row i = view · 16 + anchor, k < 256) and lab i the label of row i's anchor:
    logits i j  = (Σ_k f i k · f j k) / D                 (the contraction against the transposed features)
    M i         = the fold of max from -inf over row i of the logits
    s i j       = logits i j - M i,   e i j = exp (s i j)
    mask i j    = [lab i = lab j]                           (a 16 × 16 table tiled over the 512 × 512 views:
                                                             coordinate 1 of row i in [512, 16] is i mod 16)
    eye i j     = [i = j]                                   (two coordinate arrays compared as 32-bit words)
    neg i       = 0 + Σ_j e i j · (1 - mask i j)
    lp i j      = s i j - log (e i j + neg i)
    num i       = 0 + Σ_j (mask i j · (1 - eye i j)) · lp i j
    den i       = 0 + Σ_j mask i j · (1 - eye i j)
    result      = w · ((0 + Σ_i c · (num i / den i)) / 8192).
  The feature matrix itself is kept as an opaque function throughout.
-/
import proofs.«419777_j60876866453606_3_alg».proof.Proof.Gen.ReferenceIdeal.Read
import proofs.«419777_j60876866453606_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Cert.Contrast Idealize.ShloMosaic Idealize.ShloMosaic.ValueIdx
open scoped BigOperators

/-- A one-bit equality test, read as an unsigned number, is the indicator of the equality. -/
theorem uitofp_cmpi_eq {w : Nat} (x y : BitVec w) :
    FloatOps.uitofp (F := Ideal) .f32 (IntOp.cmpi .eq x y) = if x = y then (1 : EReal) else 0 := by
  show (((IntOp.cmpi .eq x y).toNat : ℝ) : EReal) = _
  by_cases h : x = y
  · rw [if_pos h, (IntOp.cmpi_eq).mpr h]; norm_num
  · rw [if_neg h, eq_zero_of_ne_one (fun h1 => h ((IntOp.cmpi_eq).mp h1))]; norm_num

variable (x0 : (⟨S8x16384x256, .f32⟩ : BufTy).Contents (Elt Ideal)) (x1 : (⟨S16, .i32⟩ : BufTy).Contents (Elt Ideal)) (x2 : (⟨S16x512, .i32⟩ : BufTy).Contents (Elt Ideal)) (x3 : (⟨S16, .i32⟩ : BufTy).Contents (Elt Ideal))

/-- The features as a matrix over plain indices. -/
abbrev featOf : Fin 8192 → Fin 256 → EReal := fun i k => val_main_v23 (F := Ideal) x0 x1 x2 (ix2 i k)

/-- The logits: the features' Gram matrix (the second factor is the transposed features, read back at (j, k)) over the literal D. -/
theorem logits_apply (i j : Fin 8192) :
    val_main_v27 (F := Ideal) x0 x1 x2 (ix2 i j) = logitsR (featOf x0 x1 x2) i j := by
  rw [val_main_v27_apply, val_main_v25_apply, val_main_v26_apply, val_main_cst_apply]
  simp only [val_main_v24_apply]
  unfold logitsR gram featOf
  generalize val_main_v23 (F := Ideal) x0 x1 x2 = fe
  rw [Ideal.hostDivf_def, Ideal.ofBits_def]
  refine congrArg (fun s => Ideal.div s _) (Finset.sum_congr rfl fun k _ => ?_)
  refine congrArg₂ (· * ·) (congrArg fe ?_) (congrArg fe ?_)
  · exact funext fun a => Fin.ext (by match a with | ⟨0, _⟩ => rfl | ⟨1, _⟩ => rfl)
  · exact funext fun a => Fin.ext (by match a with | ⟨0, _⟩ => rfl | ⟨1, _⟩ => rfl)

/-- The reduced index `i` with column `k` put back is (i, k). -/
theorem lift_row (h : S8192x8192.Reduces [1] S8192) (i : Fin 8192) (k : Fin (S8192x8192.size 1)) :
    h.lift (ix1 i) k = ix2 i (⟨k.val, k.isLt⟩ : Fin 8192) := by
  funext c; apply Fin.ext
  match c with
  | ⟨0, _⟩ => rfl
  | ⟨1, _⟩ => rfl

/-- The row maximum: the reduction with a maximum body over the columns is the fold of max from -inf over row i. -/
theorem rowMax_apply (i : Fin 8192) :
    val_main_v28 (F := Ideal) x0 x1 x2 (ix1 i) = rowMax (logitsR (featOf x0 x1 x2)) i := by
  unfold val_main_v28 rowMax
  have hL : ∀ j : Fin 8192, val_main_v27 (F := Ideal) x0 x1 x2 (ix2 i j) = logitsR (featOf x0 x1 x2) i j :=
    fun j => logits_apply x0 x1 x2 i j
  generalize val_main_v27 (F := Ideal) x0 x1 x2 = y at hL ⊢
  generalize logitsR (featOf x0 x1 x2) = L at hL ⊢
  have h : S8192x8192.Reduces [1] S8192 := by decide
  refine (Host.reduce_eq_fold_single (α := Ideal .f32) (FloatOps.maximumf (F := Ideal) (φ := .f32)) y _
    reducesTo_S8192x8192_S8192_d1 h h_S_ (ix1 i)).trans ?_
  have hf : (y ∘ h.lift (ix1 i)) = fun k : Fin 8192 => L i k :=
    funext fun k => (congrArg y (lift_row h i k)).trans (hL _)
  rw [val_main_cst_3_apply, Ideal.ofBits_def]
  exact congrArg (fun f => Finset.fold max negInf f (Finset.univ : Finset (Fin 8192))) hf

/-- The anchors' labels as a function of the anchor. -/
abbrev labelsOf : Fin 16 → BitVec 32 := fun a => x3 (ix1 a)

/-- The same-class matrix: entry (i, j) says whether rows i and j carry the same label. -/
theorem mask_apply (i j : Fin 8192) :
    val_main_v34 (F := Ideal) x3 (ix2 i j)
      = if labOf (labelsOf x3) i = labOf (labelsOf x3) j then (1 : EReal) else 0 := by
  rw [val_main_v34_apply, val_main_v33_apply, val_main_v32_apply, val_main_v21_apply, val_main_v20_apply,
    val_main_v18_apply, val_main_v19_apply, val_main_v17_apply, val_main_v16_apply, val_main_v16_apply, uitofp_cmpi_eq]
  have hi := i.isLt
  have hj := j.isLt
  have e1 : idx_main_v16 (idx_main_v18 (idx_main_v32 (idx_main_v33 (idx_main_v34 (ix2 i j)))))
      = ix1 (⟨i.val % 16, Nat.mod_lt _ (by decide)⟩ : Fin 16) :=
    funext fun a => Fin.ext (by
      match a with
      | ⟨0, _⟩ =>
        show ((((0 * 16 + (i.val * 8192 + j.val) / 8192 % 16) * 1 + 0) * 16 + (i.val * 8192 + j.val) % 16) / 16) * 1 + 0
          = i.val % 16
        omega)
  have e2 : idx_main_v16 (idx_main_v17 (idx_main_v19 (idx_main_v32 (idx_main_v33 (idx_main_v34 (ix2 i j))))))
      = ix1 (⟨j.val % 16, Nat.mod_lt _ (by decide)⟩ : Fin 16) :=
    funext fun a => Fin.ext (by
      match a with
      | ⟨0, _⟩ =>
        show ((((0 * 16 + (i.val * 8192 + j.val) / 8192 % 16) * 1 + 0) * 16 + (i.val * 8192 + j.val) % 16) % 16) * 1 + 0
          = j.val % 16
        omega)
  rw [e1, e2]
  rfl

/-- The identity matrix from the two coordinate arrays: entry (i, j) says whether i = j. -/
theorem eye_apply (i j : Fin 8192) :
    val_main_v42 (F := Ideal) (ix2 i j) = if i = j then (1 : EReal) else 0 := by
  rw [val_main_v42_apply, val_main_v41_apply, val_main_v40_apply, val_main_v37_apply, val_main_v38_apply,
    val_main_v39_apply, val_main_c_5_apply, uitofp_cmpi_eq]
  have hiff : (IntOp.addi (BitVec.ofNat 32 i.val) 0#32 = BitVec.ofNat 32 j.val) ↔ i = j := by
    unfold IntOp.addi
    rw [BitVec.add_zero]
    constructor
    · intro h
      have h' := congrArg BitVec.toNat h
      rw [BitVec.toNat_ofNat, BitVec.toNat_ofNat] at h'
      have hi := i.isLt
      have hj := j.isLt
      exact Fin.ext (by omega)
    · rintro rfl; rfl
  by_cases h : i = j
  · rw [if_pos h, if_pos (hiff.mpr h)]
  · rw [if_neg h, if_neg (fun h' => h (hiff.mp h'))]

/-- One minus the same-class matrix. -/
theorem negMask_apply (i j : Fin 8192) :
    val_main_v36 (F := Ideal) x3 (ix2 i j)
      = 1 - (if labOf (labelsOf x3) i = labOf (labelsOf x3) j then (1 : EReal) else 0) := by
  rw [val_main_v36_apply, val_main_v35_apply, val_main_cst_4_apply, mask_apply, Ideal.subf_def, Ideal.ofBits_def, Ideal.ofBits_one_f32]

/-- The positives' matrix: same class, and not the row itself. -/
theorem posMask_apply (i j : Fin 8192) :
    val_main_v45 (F := Ideal) x3 (ix2 i j)
      = (if labOf (labelsOf x3) i = labOf (labelsOf x3) j then (1 : EReal) else 0) * (1 - (if i = j then (1 : EReal) else 0)) := by
  rw [val_main_v45_apply, val_main_v44_apply, val_main_v43_apply, val_main_cst_6_apply, mask_apply, eye_apply,
    Ideal.mulf_def, Ideal.subf_def, Ideal.ofBits_def, Ideal.ofBits_one_f32]

/-- The logits less their row maximum; the maximum reaches (i, j) through two broadcasts along the row. -/
theorem shifted_apply (i j : Fin 8192) :
    val_main_v31 (F := Ideal) x0 x1 x2 (ix2 i j) = shifted (logitsR (featOf x0 x1 x2)) i j := by
  unfold shifted
  have e : idx_main_v29 (idx_main_v30 (ix2 i j)) = ix1 i :=
    funext fun a => Fin.ext (by match a with | ⟨0, _⟩ => rfl)
  rw [val_main_v31_apply, val_main_v30_apply, val_main_v29_apply, logits_apply, e, rowMax_apply, Ideal.subf_def]

/-- The exponentials of the shifted logits. -/
theorem expo_apply (i j : Fin 8192) :
    val_main_v46 (F := Ideal) x0 x1 x2 (ix2 i j) = expo (logitsR (featOf x0 x1 x2)) i j := by
  unfold expo
  rw [val_main_v46_apply, shifted_apply, Ideal.hostUnary_exp_def]

/-- The negatives' sum of row i: the exponentials of the other classes' columns. -/
theorem neg_apply (i : Fin 8192) :
    val_main_v48 (F := Ideal) x0 x1 x2 x3 (ix1 i)
      = negR (logitsR (featOf x0 x1 x2)) (labOf (labelsOf x3)) i := by
  unfold negR
  rw [val_main_v48_apply, val_main_cst_7_apply, Ideal.ofBits_def, Ideal.ofBits_zero_f32]
  refine congrArg (0 + ·) (Finset.sum_congr rfl fun k _ => ?_)
  have e : idx_main_v48 (ix1 i) k = ix2 i k :=
    funext fun a => Fin.ext (by match a with | ⟨0, _⟩ => rfl | ⟨1, _⟩ => rfl)
  rw [e, val_main_v47_apply, expo_apply, negMask_apply, Ideal.mulf_def]

/-- The log-probabilities: the shifted logit less the log of its exponential plus the row's negatives' sum. -/
theorem logProb_apply (i j : Fin 8192) :
    val_main_v53 (F := Ideal) x0 x1 x2 x3 (ix2 i j)
      = logProb (logitsR (featOf x0 x1 x2)) (negR (logitsR (featOf x0 x1 x2)) (labOf (labelsOf x3))) i j := by
  unfold logProb
  have e : idx_main_v49 (idx_main_v50 (ix2 i j)) = ix1 i :=
    funext fun a => Fin.ext (by match a with | ⟨0, _⟩ => rfl)
  rw [val_main_v53_apply, val_main_v52_apply, val_main_v51_apply, val_main_v50_apply, val_main_v49_apply,
    shifted_apply, expo_apply, e, neg_apply, Ideal.subf_def, Ideal.hostUnary_log_def, Ideal.addf_def]

/-- The numerator of row i: the log-probabilities of its positives, summed. -/
theorem num_apply (i : Fin 8192) :
    val_main_v55 (F := Ideal) x0 x1 x2 x3 (ix1 i)
      = numR (logitsR (featOf x0 x1 x2)) (labOf (labelsOf x3)) i := by
  unfold numR
  rw [val_main_v55_apply, val_main_cst_8_apply, Ideal.ofBits_def, Ideal.ofBits_zero_f32]
  refine congrArg (0 + ·) (Finset.sum_congr rfl fun k _ => ?_)
  have e : idx_main_v55 (ix1 i) k = ix2 i k :=
    funext fun a => Fin.ext (by match a with | ⟨0, _⟩ => rfl | ⟨1, _⟩ => rfl)
  rw [e, val_main_v54_apply, posMask_apply, logProb_apply, Ideal.mulf_def]

/-- The denominator of row i: the number of its positives. -/
theorem den_apply (i : Fin 8192) :
    val_main_v56 (F := Ideal) x3 (ix1 i) = denR (labOf (labelsOf x3)) i := by
  unfold denR
  rw [val_main_v56_apply, val_main_cst_9_apply, Ideal.ofBits_def, Ideal.ofBits_zero_f32]
  refine congrArg (0 + ·) (Finset.sum_congr rfl fun k _ => ?_)
  have e : idx_main_v56 (ix1 i) k = ix2 i k :=
    funext fun a => Fin.ext (by match a with | ⟨0, _⟩ => rfl | ⟨1, _⟩ => rfl)
  rw [e, posMask_apply]

/-- A sum over a one-axis index set is the sum over its coordinate. -/
theorem sum_idx1 {n : Nat} (g : (⟨1, ![n]⟩ : Shape).Idx → EReal) : ∑ j, g j = ∑ a : Fin n, g (ix1 a) := by
  let e : (⟨1, ![n]⟩ : Shape).Idx ≃ Fin n :=
    ⟨fun j => j 0, fun a => ix1 a, fun j => (eq_ix1 j).symm, fun _ => rfl⟩
  exact (Equiv.sum_comp e.symm g).symm

/-- THE DENSE FORM'S RESULT is the specification's dense formula of the features and the labels. -/
theorem result_apply :
    val_main_v62 (F := Ideal) x0 x1 x2 x3 ValueIdx.ix0
      = resR (fun i k => val_main_v23 (F := Ideal) x0 x1 x2 (ValueIdx.ix2 i k)) (fun a => x3 (ValueIdx.ix1 a)) := by
  unfold resR lossOf
  rw [val_main_v62_apply, val_main_cst_13_apply, val_main_v61_apply, val_main_cst_12_apply, val_main_v60_apply,
    val_main_cst_11_apply, sum_idx1]
  simp only [Ideal.mulf_def, Ideal.hostDivf_def, Ideal.ofBits_def, Ideal.ofBits_zero_f32]
  refine congrArg (fun s => wLoss * Ideal.div (0 + s) nRows) (Finset.sum_congr rfl fun i _ => ?_)
  rw [val_main_v59_apply, val_main_v58_apply, val_main_cst_10_apply, val_main_v57_apply, num_apply, den_apply,
    Ideal.mulf_def, Ideal.hostDivf_def, Ideal.ofBits_def]

end Cert.ReferenceIdeal.RefValue
end
-- ==== Proof.lean ====
/-
  The tiled pixel-contrast loss kernel against its dense reference, over the extended reals.

  Both programs gather the same 8192 × 256 feature matrix f from the inputs (row i = view i / 16 of anchor i mod 16) and
  compute w · mean_i (c · num_i / den_i) from the logits L = f fᵀ / T: num_i sums log-probabilities over the other
  rows of i's class, den_i counts them. The kernel splits f into a part a 16-bit format keeps and the rest (at exact
  arithmetic: f and f - f = 0), multiplies three Gram products by the constant the source writes 1 / T where the
  reference divides by T — the constant is named the exact reciprocal of the reference's divisor —, takes the
  negatives' sum as a difference of two sums, selects by Booleans where the reference multiplies by 0/1 masks, and
  counts den_i from the 16 × 16 label table. With finite features the two results are one extended real
  (Cert.Contrast.resK_eq_resR).
-/
import proofs.«419777_j60876866453606_3_alg».proof.Defs
import proofs.«419777_j60876866453606_3_alg».proof.Proof.Gen.Kernel
import proofs.«419777_j60876866453606_3_alg».proof.Proof.Gen.KernelIdeal
import proofs.«419777_j60876866453606_3_alg».proof.Proof.Gen.ReferenceIdeal
import proofs.«419777_j60876866453606_3_alg».proof.Proof.Gen.Pre_finite_inputs
import proofs.«419777_j60876866453606_3_alg».proof.Proof.Gen.ReferenceIdeal.Run
import proofs.«419777_j60876866453606_3_alg».proof.Proof.Gen.ReferenceIdeal.Read
import proofs.«419777_j60876866453606_3_alg».proof.Proof.SpecMath
import proofs.«419777_j60876866453606_3_alg».proof.Proof.Kernel.Run
import proofs.«419777_j60876866453606_3_alg».proof.Proof.KernelIdeal.Run
import proofs.«419777_j60876866453606_3_alg».proof.Proof.KernelIdeal.Value
import proofs.«419777_j60876866453606_3_alg».proof.Proof.KernelIdeal.HostFeat
import proofs.«419777_j60876866453606_3_alg».proof.Proof.KernelIdeal.HostTail
import proofs.«419777_j60876866453606_3_alg».proof.Proof.ReferenceIdeal.Value
import Idealize.ShloMosaic.PureOps.IdealRules

set_option maxRecDepth 16384

noncomputable section

namespace Cert.Proof

open Idealize.ShloMosaic Idealize.ShloMosaic.TcCoe Idealize.SL.Sem

/-- The kernel's named scale denotes, at exact arithmetic, the reciprocal of the reference's divisor. -/
theorem inv_temperature : Named.named (F := Ideal) Cert.KernelIdeal.κ "inv_temperature" (φ := .f32) 0x41200000#32 = Cert.Contrast.kTemp :=
  IdealRules.named_const.ideal_named_scalar _ _ _ _ rfl

/-- The one rewrite of the idealization: the scale read as that rational. -/
theorem preserves : Cert.preserves_Kernel_KernelIdeal :=
  IdealRules.named_const.statement Cert.KernelIdeal.κ "inv_temperature" .f32 0x41200000#32 ((134217728 / 13421773 : ℝ) : EReal) rfl

/-- The reference runs and leaves its arguments alone: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The word-level kernel runs and leaves its arguments alone, by the same run read at the word-level instance. -/
theorem frame_k [Cert.Kernel.Facts] [Cert.Pre_finite_inputs.Facts] : Cert.frame_Kernel := fun m ρ _ =>
  (θ_run Cert.Kernel.defs _ _).mono (fun r h c =>
    ⟨(h c _ (Cert.Kernel.Hand.mem_uc Cert.Kernel.main_arg0 (by decide))).trans (Cert.Kernel.Hand.W3_main_arg0 m c),
     (h c _ (Cert.Kernel.Hand.mem_uc Cert.Kernel.main_arg1 (by decide))).trans (Cert.Kernel.Hand.W3_main_arg1 m c),
     (h c _ (Cert.Kernel.Hand.mem_uc Cert.Kernel.main_arg2 (by decide))).trans (Cert.Kernel.Hand.W3_main_arg2 m c),
     (h c _ (Cert.Kernel.Hand.mem_uc Cert.Kernel.main_arg3 (by decide))).trans (Cert.Kernel.Hand.W3_main_arg3 m c)⟩)
    (Cert.Kernel.Hand.run_all (F := Bits) m ρ)

/-- The idealized kernel runs and leaves its arguments alone: every buffer ends at the last boundary's contents, and no
    host operation or write-back touches an argument. -/
theorem frame_ki [Cert.KernelIdeal.Facts] [Cert.Pre_finite_inputs.Facts] : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W3_main_arg0 m c),
     (h c _ (Cert.KernelIdeal.Hand.mem_uc Cert.KernelIdeal.main_arg1 (by decide))).trans (Cert.KernelIdeal.Hand.W3_main_arg1 m c),
     (h c _ (Cert.KernelIdeal.Hand.mem_uc Cert.KernelIdeal.main_arg2 (by decide))).trans (Cert.KernelIdeal.Hand.W3_main_arg2 m c),
     (h c _ (Cert.KernelIdeal.Hand.mem_uc Cert.KernelIdeal.main_arg3 (by decide))).trans (Cert.KernelIdeal.Hand.W3_main_arg3 m c)⟩)
    (Cert.KernelIdeal.Hand.run_all (F := Ideal) m ρ)

section Value

open Cert.KernelIdeal.Hand Cert.Contrast

variable [Cert.KernelIdeal.Facts] [Cert.Pre_finite_inputs.Facts]

/-- The idealized kernel's result is the tiled formula of the gathered features and the labels, which is the dense one. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    W3 (F := Ideal) m c (Proc.devRef .tc Cert.KernelIdeal.main_v47) ValueIdx.ix0
      = resR (fun i k => feat m c (ValueIdx.ix2 i k)) (sl m c) := by
  have hf : (fun (i : Fin 8192) (k : Fin 256) => V1 (F := Ideal) m c Cert.KernelIdeal.main_v37 (ValueIdx.ix2 i k))
      = fun i k => feat m c (ValueIdx.ix2 i k) := funext fun i => funext fun k => V1_v37 m c _
  have hg : (fun (i : Fin 8192) (k : Fin 256) => V1 (F := Ideal) m c Cert.KernelIdeal.main_v40 (ValueIdx.ix2 i k))
      = fun i k => feat m c (ValueIdx.ix2 i k) - feat m c (ValueIdx.ix2 i k) := funext fun i => funext fun k => V1_v40 m c _
  have hnum : (fun i : Fin 8192 => (dat0 (V1 m) c).arrAt 6 Cert.KernelIdeal.cfg0.N (ValueIdx.ix1 i))
      = numK (logitsK kTemp (fun i k => feat m c (ValueIdx.ix2 i k))
          (fun i k => feat m c (ValueIdx.ix2 i k) - feat m c (ValueIdx.ix2 i k))) (labOf (sl m c)) :=
    funext fun i => by
      have h1 := arrAt6_apply (V1 m) c (sl m c) (V1_v21 m c) (V1_v22 m c) i
      have h2 := congrArg (fun κ : EReal => numK (logitsK κ (fun (i : Fin 8192) (k : Fin 256) => V1 (F := Ideal) m c Cert.KernelIdeal.main_v37 (ValueIdx.ix2 i k))
        (fun (i : Fin 8192) (k : Fin 256) => V1 (F := Ideal) m c Cert.KernelIdeal.main_v40 (ValueIdx.ix2 i k))) (labOf (sl m c)) i) inv_temperature
      have h3 := congrArg₂ (fun f g : Fin 8192 → Fin 256 → EReal => numK (logitsK kTemp f g) (labOf (sl m c)) i) hf hg
      exact h1.trans (h2.trans h3)
  have hden : (fun i : Fin 8192 => V1 (F := Ideal) m c Cert.KernelIdeal.main_v36 (ValueIdx.ix1 i)) = denK (sl m c) :=
    funext fun i => V1_v36 m c i
  exact (W3_v47 m c).trans ((congrArg₂ lossOf hnum hden).trans
    (resK_eq_resR (fun i k => feat m c (ValueIdx.ix2 i k)) (sl m c) (fun i k => feat_real m c (finite_of_pre m hpre c) _)))

end Value

/-- From memories that agree on the arguments both programs end with the same scalar. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.W3 (F := Ideal) m c (Proc.devRef .tc Cert.KernelIdeal.main_v47), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v47 (by decide)),
     (h c _ (Cert.KernelIdeal.Hand.mem_uc Cert.KernelIdeal.main_arg0 (by decide))).trans (Cert.KernelIdeal.Hand.W3_main_arg0 m c),
     (h c _ (Cert.KernelIdeal.Hand.mem_uc Cert.KernelIdeal.main_arg1 (by decide))).trans (Cert.KernelIdeal.Hand.W3_main_arg1 m c),
     (h c _ (Cert.KernelIdeal.Hand.mem_uc Cert.KernelIdeal.main_arg2 (by decide))).trans (Cert.KernelIdeal.Hand.W3_main_arg2 m c),
     (h c _ (Cert.KernelIdeal.Hand.mem_uc Cert.KernelIdeal.main_arg3 (by decide))).trans (Cert.KernelIdeal.Hand.W3_main_arg3 m c)⟩
  · refine (θ_run Cert.ReferenceIdeal.defs _ _).mono (fun r h c => ⟨(h c).1.trans ?_, (h c).2⟩)
      (Cert.ReferenceIdeal.Value.run (F := Ideal) m' ρ')
    funext j
    obtain rfl : j = ValueIdx.ix0 := funext fun a => a.elim0
    rw [Cert.ReferenceIdeal.Read.val_main_v62_eq, Cert.ReferenceIdeal.RefValue.result_apply,
      (hagree c).1, (hagree c).2.1, (hagree c).2.2.1, (hagree c).2.2.2]
    exact (kernel_result m hpre c).symm

/-- The certificate: the three programs run and keep their arguments, the idealization is the sanctioned one, and the
    two idealized programs agree. -/
theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
